-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x4096 : Shape := ⟨2, ![2048, 4096]⟩
abbrev S1024x4096 : Shape := ⟨2, ![1024, 4096]⟩
abbrev S4096x4096 : Shape := ⟨2, ![4096, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S1024x4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  main_v28

def fn {F : FTy → Type} [FloatOps F] (main_arg0 : FVec F S2048x1024 .f32) (main_arg1 : FVec F S2048x4096 .f32) (main_arg2 : FVec F S2048x4096 .f32) (main_arg3 : FVec F S1024x4096 .f32) (main_arg4 : FVec F S4096x4096 .f32) (main_arg5 : FVec F S1024x4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_v13 main_v16
-- ==== Kernel.lean ====
abbrev S2048x1024 : Shape := ⟨2, ![2048, 1024]⟩
abbrev S2048x4096 : Shape := ⟨2, ![2048, 4096]⟩
abbrev S1024x4096 : Shape := ⟨2, ![1024, 4096]⟩
abbrev S4096x4096 : Shape := ⟨2, ![4096, 4096]⟩
abbrev S256x1024 : Shape := ⟨2, ![256, 1024]⟩
abbrev S1024x512 : Shape := ⟨2, ![1024, 512]⟩
abbrev S512x512 : Shape := ⟨2, ![512, 512]⟩
abbrev S256x512 : Shape := ⟨2, ![256, 512]⟩

abbrev nBuf : Space → Nat
  | .hbm => 8
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S1024x4096, .f32⟩
  | .hbm, ⟨4, _⟩ => ⟨S4096x4096, .f32⟩
  | .hbm, ⟨5, _⟩ => ⟨S1024x4096, .f32⟩
  | .hbm, ⟨6, _⟩ => ⟨S2048x4096, .f32⟩
  | .hbm, ⟨7, _⟩ => ⟨S2048x4096, .f32⟩
  | .local _ .vmem, ⟨0, _⟩ => ⟨S256x1024, .f32⟩
  | .local _ .vmem, ⟨1, _⟩ => ⟨S256x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x512, .f32⟩
  | .local _ .vmem, ⟨7, _⟩ => ⟨S512x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  dot_S256x1024_S1024x512_S256x512_1_0_0_1_n_n_wf : DotDims.WF S256x1024 S1024x512 S256x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .f32 = 32 ∨ (Rect.block (s := S1024x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x4096.size a
  hwx0_2 : ∀ i : grid0.Coords, EltTy.bits .f32 = 32 ∨ (Rect.block (s := S1024x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S2048x4096.size a
  hwx0_4 : ∀ i : grid0.Coords, EltTy.bits .f32 = 32 ∨ (Rect.block (s := S2048x4096) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S2048x4096.size a
  hwx0_5 : ∀ i : grid0.Coords, EltTy.bits .f32 = 32 ∨ (Rect.block (s := S2048x4096) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S2048x4096.size a
  hwx0_6 : ∀ i : grid0.Coords, EltTy.bits .f32 = 32 ∨ (Rect.block (s := S2048x4096) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S2048x4096.size a
  hwx0_7 : ∀ i : grid0.Coords, EltTy.bits .f32 = 32 ∨ (Rect.block (s := S2048x4096) S256x512.size (cc0_transform_7 i) (hinb0_7 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2048x1024 : Shape := ⟨2, ![2048, 1024]⟩
abbrev S2048x4096 : Shape := ⟨2, ![2048, 4096]⟩
abbrev S1024x4096 : Shape := ⟨2, ![1024, 4096]⟩
abbrev S4096x4096 : Shape := ⟨2, ![4096, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S1024x4096, .f32⟩
  | .hbm, ⟨4, _⟩ => ⟨S4096x4096, .f32⟩
  | .hbm, ⟨5, _⟩ => ⟨S1024x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S_, .f32⟩
  | .hbm, ⟨28, _⟩ => ⟨S2048x4096, .f32⟩
  | .hbm, ⟨29, _⟩ => ⟨S2048x4096, .i1⟩
  | .hbm, ⟨30, _⟩ => ⟨S_, .f32⟩
  | .hbm, ⟨31, _⟩ => ⟨S2048x4096, .f32⟩
  | .hbm, ⟨32, _⟩ => ⟨S_, .f32⟩
  | .hbm, ⟨33, _⟩ => ⟨S2048x4096, .f32⟩
  | .hbm, ⟨34, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  dot_S2048x1024_S1024x4096_S2048x4096_1_0_0_1_n_n_wf : DotDims.WF S2048x1024 S1024x4096 S2048x4096 [1] [0] [0] [1] [] []
  dot_S2048x4096_S4096x4096_S2048x4096_1_0_0_1_n_n_wf : DotDims.WF S2048x4096 S4096x4096 S2048x4096 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.BitsCases.lean ====
/-
  The grid of the fused reservoir step and where its two branches fire.

  The grid is (row tile i, column tile j, contraction step k) with 8 × 8 × 8 points, the contraction step innermost,
  so point t is step k = t mod 8 of the output tile t / 8. The first branch (reset the accumulator, compute the input
  and gate products) fires at k = 0; the second (combine and store the two results) at k = 7. The two result windows
  are stored only by the second branch: elsewhere they are idle and are not written back.
-/
import proofs.«174889_j37572373905508_1_alg».proof.Proof.Gen.Kernel.Launch
import proofs.«174889_j37572373905508_1_alg».proof.Proof.Gen.Kernel.Skeleton
import proofs.«174889_j37572373905508_1_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the grid -/

/-- The first branch's condition: the contraction step is 0. -/
abbrev cond1 (i : grid0.Coords) : Prop :=
  (Scalar.cmpi .ne (Scalar.extui (Scalar.cmpi .eq (BitVec.ofNat 32 (i 2).val) 0#32)) 0#32) = 1#1
/-- The second branch's condition: the contraction step is the last one. -/
abbrev cond2 (i : grid0.Coords) : Prop := k0_cond2 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 = 7 :=
  (by decide +kernel : ∀ t : Fin grid0.N, cond2 (grid0.coords t) ↔ t.val % 8 = 7)

/-! ## Where the windows are idle -/

/-- The six input windows are never idle. -/
theorem liveIn (w : Fin 8) (hw : w.val < 6) : ∀ i : grid0.Coords, cfg0.idle w i = false := by
  match w, hw with
  | ⟨0, _⟩, _ => exact fun _ => rfl
  | ⟨1, _⟩, _ => exact fun _ => rfl
  | ⟨2, _⟩, _ => exact fun _ => rfl
  | ⟨3, _⟩, _ => exact fun _ => rfl
  | ⟨4, _⟩, _ => exact fun _ => rfl
  | ⟨5, _⟩, _ => exact fun _ => rfl
/-- Off the last contraction step the two result windows are idle and not written back; at it they are live. -/
theorem idle6 : ∀ t : Fin cfg0.N, ¬cond2 (grid0.coords t) → cfg0.idle 6 (grid0.coords t) = true := by decide +kernel
theorem idle7 : ∀ t : Fin cfg0.N, ¬cond2 (grid0.coords t) → cfg0.idle 7 (grid0.coords t) = true := by decide +kernel
theorem noFlush6 : ∀ t : Fin cfg0.N, ¬cond2 (grid0.coords t) → (cfg0.win 6).flush t = false := by decide +kernel
theorem noFlush7 : ∀ t : Fin cfg0.N, ¬cond2 (grid0.coords t) → (cfg0.win 7).flush t = false := by decide +kernel
theorem live6 : ∀ t : Fin cfg0.N, cond2 (grid0.coords t) → cfg0.idle 6 (grid0.coords t) = false := by decide +kernel
theorem live7 : ∀ t : Fin cfg0.N, cond2 (grid0.coords t) → cfg0.idle 7 (grid0.coords t) = false := by decide +kernel

/-! ## The memrefs the body is called with -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x512 .f32 := win0_7.stage (cfg0.slots t 7)
abbrev hs7 (t : Fin cfg0.N) : (ms7 t).IsWhole := hstage0_7 ((cfg0.slots t 7).cast nbuf0_7)
/-- The three scratch operands: the accumulator of the state product, the input product, the gate. -/
abbrev scAcc : Memref sig .tc .vmem S256x512 .f32 := Memref.whole cc0_scratch0
abbrev scIn : Memref sig .tc .vmem S256x512 .f32 := Memref.whole cc0_scratch1
abbrev scGate : Memref sig .tc .vmem S256x512 .f32 := Memref.whole cc0_scratch2

/-- The core's scoped buffers that are no staging buffer are the three scratch operands, each owned at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scAcc fullShare d) ∗ (∃ d, owns (c : Thread nD τ) scIn fullShare d)
          ∗ (∃ d, owns (c : Thread nD τ) scGate fullShare d)) := by
  rw [scopedRest0_eq]; simp only [scAcc, scIn, scGate, owns_whole]; try rfl

/-- The whole-block rectangle's offset is zero on both axes. -/
theorem hz2 : (![0, 0] : Fin 2 → Nat) = fun _ => 0 := by funext a; fin_cases a <;> rfl

end Cert.Kernel.Hand

end
-- ==== Proof.BitsData.lean ====
/-
  What the fused reservoir step holds between grid points, and the pipeline's proof data.

  Within one output tile (8 consecutive points, the contraction step k = t mod 8) the kernel carries three scratch
  blocks: the accumulator of the state product, reset at k = 0 and added to at every step; the input product and
  the gate, both computed at k = 0 and kept. At k = 7 the two result blocks are computed from the carried blocks and
  the state's elementwise block. The windows' arrays are the argument arrays as the region finds them (the program
  has no host operation before the region). The state array is read through two windows (the contraction operand
  and the elementwise operand), each holding half of its share.
-/
import proofs.«174889_j37572373905508_1_alg».proof.Proof.BitsCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s TensorCore buffers when the region is entered: the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The six input blocks at their literal types: the input rows, the input weights' and the gate weights' columns,
    the reservoir weights' (k, j) tile, the state's (i, k) tile and its (i, j) tile. -/
abbrev xblk (c : Dev nD) (t : Fin cfg0.N) : Vec F S256x1024 .f32 := iblk m c 0 t
abbrev wiblk (c : Dev nD) (t : Fin cfg0.N) : Vec F S1024x512 .f32 := iblk m c 1 t
abbrev wgblk (c : Dev nD) (t : Fin cfg0.N) : Vec F S1024x512 .f32 := iblk m c 2 t
abbrev wrblk (c : Dev nD) (t : Fin cfg0.N) : Vec F S512x512 .f32 := iblk m c 3 t
abbrev smblk (c : Dev nD) (t : Fin cfg0.N) : Vec F S256x512 .f32 := iblk m c 4 t
abbrev seblk (c : Dev nD) (t : Fin cfg0.N) : Vec F S256x512 .f32 := iblk m c 5 t

/-! ## The carried scratch blocks after each point -/

/-- The accumulator after point `n`: at a tile's first step the state product of that step over the zero block,
    afterwards the step's product added to what the point before left. -/
def accAt (c : Dev nD) : (n : ℕ) → n < cfg0.N → Vec F S256x512 .f32
  | 0, hn => k0_pay5 (smblk m c ⟨0, hn⟩) (wrblk m c ⟨0, hn⟩) (k0_pay1 (F := F))
  | n + 1, hn =>
    if (n + 1) % 8 = 0 then k0_pay5 (smblk m c ⟨n + 1, hn⟩) (wrblk m c ⟨n + 1, hn⟩) (k0_pay1 (F := F))
    else k0_pay5 (smblk m c ⟨n + 1, hn⟩) (wrblk m c ⟨n + 1, hn⟩) (accAt c n (Nat.lt_of_succ_lt hn))

/-- The input product after point `n`: computed at a tile's first step, kept afterwards. -/
def icAt (c : Dev nD) : (n : ℕ) → n < cfg0.N → Vec F S256x512 .f32
  | 0, hn => k0_pay3 (xblk m c ⟨0, hn⟩) (wiblk m c ⟨0, hn⟩)
  | n + 1, hn =>
    if (n + 1) % 8 = 0 then k0_pay3 (xblk m c ⟨n + 1, hn⟩) (wiblk m c ⟨n + 1, hn⟩)
    else icAt c n (Nat.lt_of_succ_lt hn)

/-- The gate after point `n`: computed at a tile's first step, kept afterwards. -/
def gateAt (c : Dev nD) : (n : ℕ) → n < cfg0.N → Vec F S256x512 .f32
  | 0, hn => k0_pay4 (xblk m c ⟨0, hn⟩) (wgblk m c ⟨0, hn⟩)
  | n + 1, hn =>
    if (n + 1) % 8 = 0 then k0_pay4 (xblk m c ⟨n + 1, hn⟩) (wgblk m c ⟨n + 1, hn⟩)
    else gateAt c n (Nat.lt_of_succ_lt hn)

theorem accAt_first (c : Dev nD) (t : Fin cfg0.N) (h : t.val % 8 = 0) :
    accAt m c t.val t.isLt = k0_pay5 (smblk m c t) (wrblk m c t) (k0_pay1 (F := F)) := by
  obtain ⟨n, hn⟩ := t
  cases n with
  | zero => rfl
  | succ n => exact if_pos h
theorem accAt_later (c : Dev nD) (t : Fin cfg0.N) (h : ¬t.val % 8 = 0) :
    accAt m c t.val t.isLt = k0_pay5 (smblk m c t) (wrblk m c t) (accAt m c (t.val - 1) (Nat.lt_of_le_of_lt (Nat.sub_le _ _) t.isLt)) := by
  obtain ⟨n, hn⟩ := t
  cases n with
  | zero => exact absurd (Nat.zero_mod _) h
  | succ n => exact if_neg h
theorem icAt_first (c : Dev nD) (t : Fin cfg0.N) (h : t.val % 8 = 0) :
    icAt m c t.val t.isLt = k0_pay3 (xblk m c t) (wiblk m c t) := by
  obtain ⟨n, hn⟩ := t
  cases n with
  | zero => rfl
  | succ n => exact if_pos h
theorem icAt_later (c : Dev nD) (t : Fin cfg0.N) (h : ¬t.val % 8 = 0) :
    icAt m c t.val t.isLt = icAt m c (t.val - 1) (Nat.lt_of_le_of_lt (Nat.sub_le _ _) t.isLt) := by
  obtain ⟨n, hn⟩ := t
  cases n with
  | zero => exact absurd (Nat.zero_mod _) h
  | succ n => exact if_neg h
theorem gateAt_first (c : Dev nD) (t : Fin cfg0.N) (h : t.val % 8 = 0) :
    gateAt m c t.val t.isLt = k0_pay4 (xblk m c t) (wgblk m c t) := by
  obtain ⟨n, hn⟩ := t
  cases n with
  | zero => rfl
  | succ n => exact if_pos h
theorem gateAt_later (c : Dev nD) (t : Fin cfg0.N) (h : ¬t.val % 8 = 0) :
    gateAt m c t.val t.isLt = gateAt m c (t.val - 1) (Nat.lt_of_le_of_lt (Nat.sub_le _ _) t.isLt) := by
  obtain ⟨n, hn⟩ := t
  cases n with
  | zero => exact absurd (Nat.zero_mod _) h
  | succ n => exact if_neg h

/-- The two result blocks the last step of a tile stores (stated at every point; consulted only where the windows
    are live): the new state, and its threshold indicator. -/
abbrev stateOut (c : Dev nD) (t : Fin cfg0.N) : Vec F S256x512 .f32 :=
  k0_pay6 (seblk m c t) (icAt m c t.val t.isLt) (accAt m c t.val t.isLt) (gateAt m c t.val t.isLt)
abbrev spikeOut (c : Dev nD) (t : Fin cfg0.N) : Vec F S256x512 .f32 :=
  k0_pay7 (seblk m c t) (icAt m c t.val t.isLt) (accAt m c t.val t.isLt) (gateAt m c t.val t.isLt)

/-! ## The invariant between points -/

/-- Before the first point the three scratch blocks hold anything; after point `n` they hold what it left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scAcc fullShare (accAt m c n hn) ∗ owns (c : Thread nD τ) scIn fullShare (icAt m c n hn)
      ∗ owns (c : Thread nD τ) scGate fullShare (gateAt m c n hn))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scAcc fullShare (accAt m c n hn) ∗ owns (c : Thread nD τ) scIn fullShare (icAt m c n hn)
      ∗ owns (c : Thread nD τ) scGate fullShare (gateAt m c n hn)) := rfl
theorem PhiS_pos (c : Dev nD) (n : ℕ) (h : n ≤ cfg0.N) (hz : n ≠ 0) :
    PhiS m c n h = iprop(owns (c : Thread nD τ) scAcc fullShare (accAt m c (n - 1) (by omega)) ∗ owns (c : Thread nD τ) scIn fullShare (icAt m c (n - 1) (by omega))
      ∗ owns (c : Thread nD τ) scGate fullShare (gateAt m c (n - 1) (by omega))) := by
  cases n with
  | zero => exact absurd rfl hz
  | succ n => rfl

/-! ## The pipeline's proof data -/

/-- The proof data on core `c`: the arrays as the region finds them; after the body each input's buffer at its
    block, the two results' at the blocks the last step stores; the invariant above; the state array's share dealt
    in halves to its two windows, every other array held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => spikeOut m c t
    | ⟨7, _⟩ => stateOut m c t
  Φ t := PhiS m c t.val (Nat.le_of_lt_succ t.isLt)
  q w := match w with
    | ⟨4, _⟩ => fullShare.left
    | ⟨5, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = spikeOut m c t := by dsimp only [dats]
theorem after7 (c : Dev nD) (t : Fin cfg0.N) : (dats m 0 c).after 7 t = stateOut m c t := by dsimp only [dats]

/-- Each input's current staging buffer holds its block at every point, fetched there or not: the body leaves an
    input block in place, and an unfetched window's block index has not moved. -/
theorem before0 (c : Dev nD) (t : Fin cfg0.N) (d) : (dats m 0 c).before 0 t d = iblk m c 0 t :=
  ((dats m 0 c).before_in_eq_fetched 0 rfl (liveIn 0 (by decide)) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (liveIn 1 (by decide)) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (liveIn 2 (by decide)) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (liveIn 3 (by decide)) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (liveIn 4 (by decide)) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (liveIn 5 (by decide)) (fun _ _ _ => rfl) (fun t => by rw [after5]; unfold Dat.blockOf iblk; rw [A_eq]; try rfl) t d).trans
    (by unfold Dat.fetched Dat.blockOf iblk; rw [A_eq]; try rfl)

end Cert.Kernel.Hand

end
-- ==== Proof.LibWholeStore.lean ====
/-
  Stores that each write a WHOLE block, and a load of the whole block between them.

  When every store of a body writes its buffer whole, the buffer's contents after any prefix of the stores are the
  last store's payload, however many stores came before: the later store hides the earlier ones. So a load of the
  whole buffer after such a prefix reads that payload. The library states this for a list of ONE store
  (`View.readCov_unit_zero`); an accumulator that is zeroed and then updated twice at one grid point meets a load
  after TWO stores, and one updated `k` times a load after `k`.
-/
import Idealize.ShloMosaic.Lib.Pipeline.Value

namespace Cert.LibWholeStore

open Idealize.ShloMosaic

/-- A load of the whole block (the rectangle at offset zero of the block's own size), after a list of stores the
    LAST of which (the list's head) wrote the whole block, reads that store's payload `w`, whatever the earlier
    stores `L` were. -/
theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.LibWholeStore
-- ==== Proof.LibWholeRead.lean ====
/-
  A buffer after stores the LAST of which wrote the whole block.

  When the last store into a buffer wrote all of it (the rectangle at offset zero of the buffer's own size), the
  buffer reads back that store's payload, whatever the earlier stores and the prior contents were: the whole-block
  rectangle covers every index, and the last write wins wherever it lands.
-/
import Idealize.ShloMosaic.Lib.Pipeline.Value

namespace Cert.LibWholeRead

open Idealize.ShloMosaic

/-- Reading a view after a list of stores whose head (the last store) wrote the whole block with payload `w` gives `w`. -/
theorem read_writes_cons_whole {Val : EltTy → Type} [∀ e, Nonempty (Val e)] {sig : RefSig} {κ : Kind} {sp : Space}
    {S : Shape} {e : EltTy} (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Cert.LibWholeRead
-- ==== Proof.BitsBodyA.lean ====
/-
  The kernel body of the fused reservoir step, at the first contraction step of a tile: the accumulator is zeroed, the input product and the gate are computed and stored, then the step's state product is added to the zero accumulator, on any whole staging and scratch memrefs. Every load and store
  of the body moves a whole block, so a buffer reads back the payload of the last store into it. The case is stated
  with the continuation as a parameter, so that it frames every buffer it does not name.
-/
import proofs.«174889_j37572373905508_1_alg».proof.Proof.BitsCases
import proofs.«174889_j37572373905508_1_alg».proof.Proof.LibWholeStore
import proofs.«174889_j37572373905508_1_alg».proof.Proof.LibWholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A VMEM memref of f32. -/
abbrev M (S : Shape) := Memref sig .tc .vmem S .f32

set_option maxHeartbeats 1600000 in
/-- Case A: the first contraction step of a tile. -/
theorem run_A (c : Dev nD) (i : grid0.Coords)
    (a3 : M S256x1024) (h3 : a3.IsWhole) (a4 : M S1024x512) (h4 : a4.IsWhole) (a5 : M S1024x512) (h5 : a5.IsWhole)
    (a6 : M S512x512) (h6 : a6.IsWhole) (a7 : M S256x512) (h7 : a7.IsWhole) (a8 : M S256x512) (h8 : a8.IsWhole)
    (a9 : M S256x512) (h9 : a9.IsWhole) (a10 : M S256x512) (h10 : a10.IsWhole) (a11 : M S256x512) (h11 : a11.IsWhole)
    (a12 : M S256x512) (h12 : a12.IsWhole) (a13 : M S256x512) (h13 : a13.IsWhole)
    (hc1 : cond1 i) (hc2 : ¬cond2 i)
    (x0 : Vec F S256x1024 .f32) (x1 x2 : Vec F S1024x512 .f32) (x3 : Vec F S512x512 .f32) (x4 : Vec F S256x512 .f32)
    (d11 d12 d13 : Vec F S256x512 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4
        ∗ owns (c : Thread nD τ) a11 fullShare d11 ∗ owns (c : Thread nD τ) a12 fullShare d12 ∗ owns (c : Thread nD τ) a13 fullShare d13
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4
            ∗ owns (c : Thread nD τ) a11 fullShare (k0_pay5 x4 x3 (k0_pay1 (F := F)))
            ∗ owns (c : Thread nD τ) a12 fullShare (k0_pay3 x0 x1) ∗ owns (c : Thread nD τ) a13 fullShare (k0_pay4 x0 x2)) -∗ K ⟨⟩))
      ⊢ wp frame (wpE (defs₀ (F := F)) Variants.none c none) E (cc0__kernel i a3 h3 a4 h4 a5 h5 a6 h6 a7 h7 a8 h8 a9 h9 a10 h10 a11 h11 a12 h12 a13 h13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f11, %hf11, H11⟩, ⟨%f12, %hf12, H12⟩, ⟨%f13, %hf13, H13⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H11]
  · iexists _; isplitr
    swap; · iexact H11
    ipureintro
    sl_unfold_run_names
    rw [Cert.LibWholeRead.read_writes_cons_whole (S := S256x512) _ _ hz2]
    simp only [View.readAt_eq_ld, h6.read_unread, h7.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]
  isplitl [H12]
  · iexists _; isplitr
    swap; · iexact H12
    ipureintro
    sl_unfold_run_names
    rw [Cert.LibWholeRead.read_writes_cons_whole (S := S256x512) _ _ hz2]
    simp only [View.readAt_eq_ld, h3.read_unread, h4.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]
  · iexists _; isplitr
    swap; · iexact H13
    ipureintro
    sl_unfold_run_names
    rw [Cert.LibWholeRead.read_writes_cons_whole (S := S256x512) _ _ hz2]
    simp only [View.readAt_eq_ld, h3.read_unread, h5.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]

end Cert.Kernel.Hand

end
-- ==== Proof.BitsBodyB.lean ====
/-
  The kernel body of the fused reservoir step, at a middle contraction step: the step's state product is added to the accumulator, on any whole staging and scratch memrefs. Every load and store
  of the body moves a whole block, so a buffer reads back the payload of the last store into it. The case is stated
  with the continuation as a parameter, so that it frames every buffer it does not name.
-/
import proofs.«174889_j37572373905508_1_alg».proof.Proof.BitsCases
import proofs.«174889_j37572373905508_1_alg».proof.Proof.LibWholeStore
import proofs.«174889_j37572373905508_1_alg».proof.Proof.LibWholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A VMEM memref of f32. -/
abbrev Mb (S : Shape) := Memref sig .tc .vmem S .f32

set_option maxHeartbeats 1600000 in
/-- Case B: a middle contraction step. -/
theorem run_B (c : Dev nD) (i : grid0.Coords)
    (a3 : Mb S256x1024) (h3 : a3.IsWhole) (a4 : Mb S1024x512) (h4 : a4.IsWhole) (a5 : Mb S1024x512) (h5 : a5.IsWhole)
    (a6 : Mb S512x512) (h6 : a6.IsWhole) (a7 : Mb S256x512) (h7 : a7.IsWhole) (a8 : Mb S256x512) (h8 : a8.IsWhole)
    (a9 : Mb S256x512) (h9 : a9.IsWhole) (a10 : Mb S256x512) (h10 : a10.IsWhole) (a11 : Mb S256x512) (h11 : a11.IsWhole)
    (a12 : Mb S256x512) (h12 : a12.IsWhole) (a13 : Mb S256x512) (h13 : a13.IsWhole)
    (hc1 : ¬cond1 i) (hc2 : ¬cond2 i)
    (x3 : Vec F S512x512 .f32) (x4 : Vec F S256x512 .f32) (acc : Vec F S256x512 .f32)
    (E : Set ℕ) (K : PUnit → sProp 𝕄) :
    iprop(owns (c : Thread nD τ) a6 fullShare x3 ∗ owns (c : Thread nD τ) a7 fullShare x4 ∗ owns (c : Thread nD τ) a11 fullShare acc
        ∗ (iprop(owns (c : Thread nD τ) a6 fullShare x3 ∗ owns (c : Thread nD τ) a7 fullShare x4
            ∗ owns (c : Thread nD τ) a11 fullShare (k0_pay5 x4 x3 acc)) -∗ K ⟨⟩))
      ⊢ wp frame (wpE (defs₀ (F := F)) Variants.none c none) E (cc0__kernel i a3 h3 a4 h4 a5 h5 a6 h6 a7 h7 a8 h8 a9 h9 a10 h10 a11 h11 a12 h12 a13 h13) K := by
  simp only [cc0__kernel_eq_skeleton]; unfold cc0__kernel_skel
  unfold owns
  iintro ⟨⟨%f3, %hf3, H3⟩, ⟨%f4, %hf4, H4⟩, ⟨%f11, %hf11, H11⟩, Hk⟩
  obtain rfl := h6.eq_unread hf3; obtain rfl := h7.eq_unread hf4; obtain rfl := h11.eq_unread hf11
  sl_exec (disch := first | exact hc1 | exact hc2)
  sl_step
  iapply Hk
  isplitl [H3]
  · iexists _; isplitr; · ipureintro; exact h6.read_unread _
    iexact H3
  isplitl [H4]
  · iexists _; isplitr; · ipureintro; exact h7.read_unread _
    iexact H4
  iexists _; isplitr
  swap; · iexact H11
  ipureintro
  sl_unfold_run_names
  rw [Cert.LibWholeRead.read_writes_cons_whole (S := S256x512) _ _ hz2]
  simp only [View.readAt_eq_ld, h6.read_unread, h7.read_unread, h11.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]

end Cert.Kernel.Hand

end
-- ==== Proof.BitsBodyC.lean ====
/-
  The kernel body of the fused reservoir step, at the last contraction step of a tile: the step's product is added to the accumulator, then the two result blocks are computed from the carried blocks and the state's elementwise block and stored, on any whole staging and scratch memrefs. Every load and store
  of the body moves a whole block, so a buffer reads back the payload of the last store into it. The case is stated
  with the continuation as a parameter, so that it frames every buffer it does not name.
-/
import proofs.«174889_j37572373905508_1_alg».proof.Proof.BitsCases
import proofs.«174889_j37572373905508_1_alg».proof.Proof.LibWholeStore
import proofs.«174889_j37572373905508_1_alg».proof.Proof.LibWholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A VMEM memref of f32. -/
abbrev Mc (S : Shape) := Memref sig .tc .vmem S .f32

set_option maxHeartbeats 1600000 in
/-- Case C: the last contraction step of a tile. -/
theorem run_C (c : Dev nD) (i : grid0.Coords)
    (a3 : Mc S256x1024) (h3 : a3.IsWhole) (a4 : Mc S1024x512) (h4 : a4.IsWhole) (a5 : Mc S1024x512) (h5 : a5.IsWhole)
    (a6 : Mc S512x512) (h6 : a6.IsWhole) (a7 : Mc S256x512) (h7 : a7.IsWhole) (a8 : Mc S256x512) (h8 : a8.IsWhole)
    (a9 : Mc S256x512) (h9 : a9.IsWhole) (a10 : Mc S256x512) (h10 : a10.IsWhole) (a11 : Mc S256x512) (h11 : a11.IsWhole)
    (a12 : Mc S256x512) (h12 : a12.IsWhole) (a13 : Mc S256x512) (h13 : a13.IsWhole)
    (hc1 : ¬cond1 i) (hc2 : cond2 i)
    (x3 : Vec F S512x512 .f32) (x4 x5 : Vec F S256x512 .f32) (d9 d10 acc ic gate : Vec F S256x512 .f32)
    (E : Set ℕ) (K : PUnit → sProp 𝕄) :
    iprop(owns (c : Thread nD τ) a6 fullShare x3 ∗ owns (c : Thread nD τ) a7 fullShare x4 ∗ owns (c : Thread nD τ) a8 fullShare x5
        ∗ owns (c : Thread nD τ) a9 fullShare d9 ∗ owns (c : Thread nD τ) a10 fullShare d10
        ∗ owns (c : Thread nD τ) a11 fullShare acc ∗ owns (c : Thread nD τ) a12 fullShare ic ∗ owns (c : Thread nD τ) a13 fullShare gate
        ∗ (iprop(owns (c : Thread nD τ) a6 fullShare x3 ∗ owns (c : Thread nD τ) a7 fullShare x4 ∗ owns (c : Thread nD τ) a8 fullShare x5
            ∗ owns (c : Thread nD τ) a9 fullShare (k0_pay7 x5 ic (k0_pay5 x4 x3 acc) gate)
            ∗ owns (c : Thread nD τ) a10 fullShare (k0_pay6 x5 ic (k0_pay5 x4 x3 acc) gate)
            ∗ owns (c : Thread nD τ) a11 fullShare (k0_pay5 x4 x3 acc)
            ∗ owns (c : Thread nD τ) a12 fullShare ic ∗ owns (c : Thread nD τ) a13 fullShare gate) -∗ K ⟨⟩))
      ⊢ wp frame (wpE (defs₀ (F := F)) Variants.none c none) E (cc0__kernel i a3 h3 a4 h4 a5 h5 a6 h6 a7 h7 a8 h8 a9 h9 a10 h10 a11 h11 a12 h12 a13 h13) K := by
  simp only [cc0__kernel_eq_skeleton]; unfold cc0__kernel_skel
  unfold owns
  iintro ⟨⟨%f3, %hf3, H3⟩, ⟨%f4, %hf4, H4⟩, ⟨%f5, %hf5, H5⟩, ⟨%f9, %hf9, H9⟩, ⟨%f10, %hf10, H10⟩, ⟨%f11, %hf11, H11⟩, ⟨%f12, %hf12, H12⟩, ⟨%f13, %hf13, H13⟩, Hk⟩
  obtain rfl := h6.eq_unread hf3; obtain rfl := h7.eq_unread hf4; obtain rfl := h8.eq_unread hf5
  obtain rfl := h11.eq_unread hf11; obtain rfl := h12.eq_unread hf12; obtain rfl := h13.eq_unread hf13
  sl_exec (disch := first | exact hc1 | exact hc2)
  sl_step
  iapply Hk
  isplitl [H3]
  · iexists _; isplitr; · ipureintro; exact h6.read_unread _
    iexact H3
  isplitl [H4]
  · iexists _; isplitr; · ipureintro; exact h7.read_unread _
    iexact H4
  isplitl [H5]
  · iexists _; isplitr; · ipureintro; exact h8.read_unread _
    iexact H5
  isplitl [H9]
  · iexists _; isplitr
    swap; · iexact H9
    ipureintro
    sl_unfold_run_names
    rw [Cert.LibWholeRead.read_writes_cons_whole (S := S256x512) _ _ hz2]
    simp only [View.readAt_eq_ld, h6.read_unread, h7.read_unread, h8.read_unread, h11.read_unread, h12.read_unread, h13.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]
  isplitl [H10]
  · iexists _; isplitr
    swap; · iexact H10
    ipureintro
    sl_unfold_run_names
    rw [Cert.LibWholeRead.read_writes_cons_whole (S := S256x512) _ _ hz2]
    simp only [View.readAt_eq_ld, h6.read_unread, h7.read_unread, h8.read_unread, h11.read_unread, h12.read_unread, h13.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]
  isplitl [H11]
  · iexists _; isplitr
    swap; · iexact H11
    ipureintro
    sl_unfold_run_names
    rw [Cert.LibWholeRead.read_writes_cons_whole (S := S256x512) _ _ hz2]
    simp only [View.readAt_eq_ld, h6.read_unread, h7.read_unread, h11.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]
  isplitl [H12]
  · iexists _; isplitr; · ipureintro; exact h12.read_unread _
    iexact H12
  · iexists _; isplitr; · ipureintro; exact h13.read_unread _
    iexact H13

end Cert.Kernel.Hand

end
-- ==== Proof.BitsOblig.lean ====
/-
  The body obligation of the pipeline: at every grid point the kernel body, started from the invariant and the
  windows' current buffers, ends in the invariant of the next point with every live window's buffer at what the proof
  data say. By cases on the contraction step: 0 (case A), 7 (case C), any other (case B).
-/
import proofs.«174889_j37572373905508_1_alg».proof.Proof.BitsData
import proofs.«174889_j37572373905508_1_alg».proof.Proof.BitsBodyA
import proofs.«174889_j37572373905508_1_alg».proof.Proof.BitsBodyB
import proofs.«174889_j37572373905508_1_alg».proof.Proof.BitsBodyC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The obligation's two sides, the windows one by one -/

/-- What the body is called with at point `t`: the invariant, what the core owes, and the eight windows' current
    buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

/-! ## The input windows are live everywhere: the body leaves each buffer at its block -/

theorem leaves0 (c : Dev nD) (t : Fin cfg0.N) :
    (dats m 0 c).leavesExact 0 t = owns (c : Thread nD τ) (ms0 t) fullShare (xblk m c t) := by
  unfold Dat.leavesExact; rw [liveIn 0 (by decide) _, after0]
theorem leaves1 (c : Dev nD) (t : Fin cfg0.N) :
    (dats m 0 c).leavesExact 1 t = owns (c : Thread nD τ) (ms1 t) fullShare (wiblk m c t) := by
  unfold Dat.leavesExact; rw [liveIn 1 (by decide) _, after1]
theorem leaves2 (c : Dev nD) (t : Fin cfg0.N) :
    (dats m 0 c).leavesExact 2 t = owns (c : Thread nD τ) (ms2 t) fullShare (wgblk m c t) := by
  unfold Dat.leavesExact; rw [liveIn 2 (by decide) _, after2]
theorem leaves3 (c : Dev nD) (t : Fin cfg0.N) :
    (dats m 0 c).leavesExact 3 t = owns (c : Thread nD τ) (ms3 t) fullShare (wrblk m c t) := by
  unfold Dat.leavesExact; rw [liveIn 3 (by decide) _, after3]
theorem leaves4 (c : Dev nD) (t : Fin cfg0.N) :
    (dats m 0 c).leavesExact 4 t = owns (c : Thread nD τ) (ms4 t) fullShare (smblk m c t) := by
  unfold Dat.leavesExact; rw [liveIn 4 (by decide) _, after4]
theorem leaves5 (c : Dev nD) (t : Fin cfg0.N) :
    (dats m 0 c).leavesExact 5 t = owns (c : Thread nD τ) (ms5 t) fullShare (seblk m c t) := by
  unfold Dat.leavesExact; rw [liveIn 5 (by decide) _, after5]

/-- At a tile's last step the two result windows are live: the body leaves their buffers at the stored blocks. -/
theorem leaves6 (c : Dev nD) (t : Fin cfg0.N) (hc2 : cond2 (grid0.coords t)) :
    (dats m 0 c).leavesExact 6 t = owns (c : Thread nD τ) (ms6 t) fullShare
      (k0_pay7 (seblk m c t) (icAt m c t.val t.isLt) (accAt m c t.val t.isLt) (gateAt m c t.val t.isLt)) := by
  unfold Dat.leavesExact; rw [live6 t hc2, after6]
theorem leaves7 (c : Dev nD) (t : Fin cfg0.N) (hc2 : cond2 (grid0.coords t)) :
    (dats m 0 c).leavesExact 7 t = owns (c : Thread nD τ) (ms7 t) fullShare
      (k0_pay6 (seblk m c t) (icAt m c t.val t.isLt) (accAt m c t.val t.isLt) (gateAt m c t.val t.isLt)) := by
  unfold Dat.leavesExact; rw [live7 t hc2, after7]

/-- Before any point the invariant holds the three scratch blocks, at some contents. -/
theorem Phi_some (c : Dev nD) (t : Fin cfg0.N) :
    (dats m 0 c).Φ t.castSucc ⊢ (iprop((∃ d, owns (c : Thread nD τ) scAcc fullShare d) ∗ (∃ d, owns (c : Thread nD τ) scIn fullShare d)
      ∗ (∃ d, owns (c : Thread nD τ) scGate fullShare d)) : sProp 𝕄) := by
  rw [PhiS_castSucc m c t]
  by_cases hz : t.val = 0
  · rw [PhiS_zero m c _ _ hz, scopedRest_owns]
  · rw [PhiS_pos m c _ _ hz]
    iintro ⟨H1, H2, H3⟩
    isplitl [H1]; · iexists _; iexact H1
    isplitl [H2]; · iexists _; iexact H2
    iexists _; iexact H3

/-- Before a point that is not a tile's first the invariant holds the three scratch blocks as the point before left them. -/
theorem Phi_prev (c : Dev nD) (t : Fin cfg0.N) (h0 : ¬t.val % 8 = 0) :
    (dats m 0 c).Φ t.castSucc = iprop(owns (c : Thread nD τ) scAcc fullShare (accAt m c (t.val - 1) (Nat.lt_of_le_of_lt (Nat.sub_le _ _) t.isLt))
      ∗ owns (c : Thread nD τ) scIn fullShare (icAt m c (t.val - 1) (Nat.lt_of_le_of_lt (Nat.sub_le _ _) t.isLt))
      ∗ owns (c : Thread nD τ) scGate fullShare (gateAt m c (t.val - 1) (Nat.lt_of_le_of_lt (Nat.sub_le _ _) t.isLt))) := by
  rw [PhiS_castSucc m c t, PhiS_pos m c _ _ (fun hz => h0 (by rw [hz]))]

/-! ## The body, case by case -/

set_option maxHeartbeats 1600000 in
/-- A tile's first step: the scratch blocks are overwritten whatever they held. -/
theorem sound_A (c : Dev nD) (t : Fin cfg0.N) (h0 : t.val % 8 = 0) :
    bodyPre m c t ⊢ wp frame (wpE (defs₀ (F := F)) Variants.none c none) Set.univ (bodyAt0 t) (fun _ => bodyPost m c t) := by
  have hc1 : cond1 (grid0.coords t) := (hcond1 t).mpr h0
  have hc2 : ¬cond2 (grid0.coords t) := fun h => by have := (hcond2 t).mp h; omega
  unfold bodyPre bodyPost bodyAt0
  simp only [before0 m, before1 m, before2 m, before3 m, before4 m, before5 m]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t, leaves5 m c t]
  rw [Dat.leavesExact_idle (dats m 0 c) 6 t (idle6 t hc2) (noFlush6 t hc2),
    Dat.leavesExact_idle (dats m 0 c) 7 t (idle7 t hc2) (noFlush7 t hc2)]
  rw [accAt_first m c t h0, icAt_first m c t h0, gateAt_first m c t h0]
  refine (sep_mono (Phi_some m c t) .rfl).trans ?_
  iintro ⟨⟨⟨%e1, S1⟩, ⟨%e2, S2⟩, ⟨%e3, S3⟩⟩, Ho, ⟨%d0, H0⟩, ⟨%d1, H1⟩, ⟨%d2, H2⟩, ⟨%d3, H3⟩, ⟨%d4, H4⟩, ⟨%d5, H5⟩, H6, H7⟩
  iapply (run_A c (grid0.coords t) _ _ _ _ _ _ _ _ _ _ _ _ _ _ _ _ _ _ _ _ _ _ hc1 hc2
    (xblk m c t) (wiblk m c t) (wgblk m c t) (wrblk m c t) (smblk m c t) e1 e2 e3 Set.univ _)
  isplitl [H0]; · iexact H0
  isplitl [H1]; · iexact H1
  isplitl [H2]; · iexact H2
  isplitl [H3]; · iexact H3
  isplitl [H4]; · iexact H4
  isplitl [S1]; · iexact S1
  isplitl [S2]; · iexact S2
  isplitl [S3]; · iexact S3
  iintro ⟨H0, H1, H2, H3, H4, S1, S2, S3⟩
  isplitl [S1 S2 S3]
  · isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- A middle step: the step's product is added to the accumulator, the other two scratch blocks are kept. -/
theorem sound_B (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  have hc1 : ¬cond1 (grid0.coords t) := fun h => h0 ((hcond1 t).mp h)
  have hc2 : ¬cond2 (grid0.coords t) := fun h => h7 ((hcond2 t).mp h)
  unfold bodyPre bodyPost bodyAt0
  simp only [before0 m, before1 m, before2 m, before3 m, before4 m, before5 m]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t, leaves5 m c t]
  rw [Dat.leavesExact_idle (dats m 0 c) 6 t (idle6 t hc2) (noFlush6 t hc2),
    Dat.leavesExact_idle (dats m 0 c) 7 t (idle7 t hc2) (noFlush7 t hc2)]
  rw [accAt_later m c t h0, icAt_later m c t h0, gateAt_later m c t h0, Phi_prev m c t h0]
  iintro ⟨⟨S1, S2, S3⟩, Ho, ⟨%d0, H0⟩, ⟨%d1, H1⟩, ⟨%d2, H2⟩, ⟨%d3, H3⟩, ⟨%d4, H4⟩, ⟨%d5, H5⟩, H6, H7⟩
  iapply (run_B c (grid0.coords t) _ _ _ _ _ _ _ _ _ _ _ _ _ _ _ _ _ _ _ _ _ _ hc1 hc2
    (wrblk m c t) (smblk m c t) (accAt m c (t.val - 1) (Nat.lt_of_le_of_lt (Nat.sub_le _ _) t.isLt)) Set.univ _)
  isplitl [H3]; · iexact H3
  isplitl [H4]; · iexact H4
  isplitl [S1]; · iexact S1
  iintro ⟨H3, H4, S1⟩
  isplitl [S1 S2 S3]
  · isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- A tile's last step: the accumulator takes the last product, and the two result blocks are stored. -/
theorem sound_C (c : Dev nD) (t : Fin cfg0.N) (h7 : t.val % 8 = 7) :
    bodyPre m c t ⊢ wp frame (wpE (defs₀ (F := F)) Variants.none c none) Set.univ (bodyAt0 t) (fun _ => bodyPost m c t) := by
  have h0 : ¬t.val % 8 = 0 := by omega
  have hc1 : ¬cond1 (grid0.coords t) := fun h => h0 ((hcond1 t).mp h)
  have hc2 : cond2 (grid0.coords t) := (hcond2 t).mpr h7
  unfold bodyPre bodyPost bodyAt0
  simp only [before0 m, before1 m, before2 m, before3 m, before4 m, before5 m]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t, leaves5 m c t,
    leaves6 m c t hc2, leaves7 m c t hc2]
  rw [accAt_later m c t h0, icAt_later m c t h0, gateAt_later m c t h0, Phi_prev m c t h0]
  iintro ⟨⟨S1, S2, S3⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_C c (grid0.coords t) _ _ _ _ _ _ _ _ _ _ _ _ _ _ _ _ _ _ _ _ _ _ hc1 hc2
    (wrblk m c t) (smblk m c t) (seblk m c t) ((dats m 0 c).before 6 t d6) ((dats m 0 c).before 7 t d7)
    (accAt m c (t.val - 1) (Nat.lt_of_le_of_lt (Nat.sub_le _ _) t.isLt))
    (icAt m c (t.val - 1) (Nat.lt_of_le_of_lt (Nat.sub_le _ _) t.isLt))
    (gateAt m c (t.val - 1) (Nat.lt_of_le_of_lt (Nat.sub_le _ _) t.isLt)) Set.univ _)
  isplitl [H3]; · iexact H3
  isplitl [H4]; · iexact H4
  isplitl [H5]; · iexact H5
  isplitl [H6]; · iexact H6
  isplitl [H7]; · iexact H7
  isplitl [S1]; · iexact S1
  isplitl [S2]; · iexact S2
  isplitl [S3]; · iexact S3
  iintro ⟨H3, H4, H5, H6, H7, S1, S2, S3⟩
  isplitl [S1 S2 S3]
  · isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point, by the contraction step. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0
  · by_cases h7 : t.val % 8 = 7
    · exact sound_C m c t h7
    · exact sound_B m c t h0 h7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the invariant gives the scratch buffers back, their contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  have hN : cfg0.N ≠ 0 := by have : cfg0.N = 512 := N_0; omega
  rw [show (dats m 0 c).Φ (Fin.last cfg0.N) = PhiS m c cfg0.N (Nat.le_refl _) from rfl, PhiS_pos m c _ _ hN, scopedRest_owns]
  iintro ⟨H1, H2, H3⟩
  isplitl [H1]; · iexists _; iexact H1
  isplitl [H2]; · iexists _; iexact H2
  iexists _; iexact H3

end Cert.Kernel.Hand

end
-- ==== Proof.LibSharedFrame.lean ====
/-
  The frame run of a one-region TensorCore program whose pipeline hands ONE array to several input windows.

  The pipeline's launch holds every distinct array behind the windows whole, at the full share. When two input
  windows read the same array that full share must be dealt among them before the pipeline starts: each window
  fetches its blocks under a fraction of the array, and an output window keeps its own array outright. How the
  shares are dealt is the one extra obligation (`hsplit`); the rest is the plain frame run: the body keeps nothing
  between grid points but the scoped buffers that are no staging buffer, every unscoped buffer that is no window's
  array bypasses the region and is read back unchanged, and every window's array ends at what the write-backs
  of the grid points leave in it (`Dat.arrAt` at the last point).
-/
import Idealize.ShloMosaic.Lib.Pipeline.Frame

noncomputable section

namespace Idealize.ShloMosaic.Pipeline.SharedArrays

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run when windows may share arrays. The layout facts are those of a launch without the arrays'
    distinctness; `hsplit` deals the distinct arrays, each whole at the region-entry contents `V`, among the
    windows at the shares the proof data name; `hin` / `hout` say that the body's invariant is entered from, and
    gives back, the scoped buffers that are no staging buffer. Every array of the pipeline ends at
    `Dat.arrAt … N`, every other unscoped buffer at its region-entry contents. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl) (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (cfgs p).spec c : sProp 𝕄) from by iintro ⟨-, HR⟩; iexact HR).trans (hin c))
    (hout := fun c => (hout c).trans (by
      iintro HR
      isplitr; · iempintro
      iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline.SharedArrays

end
-- ==== Proof.BitsRun.lean ====
/-
  The run of the whole program and its frame: every weakly fair execution terminates, the two result arrays end at
  what the write-backs of the grid's points leave in them, and every argument array ends as it was.
-/
import proofs.«174889_j37572373905508_1_alg».proof.Proof.BitsOblig
import proofs.«174889_j37572373905508_1_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the eight windows' arrays: seven, the state array counted once. -/
theorem himg : Finset.univ.image (Pipeline.arrRef spec0) = [main_arg0, main_arg3, main_arg5, main_arg4, main_arg2, main_v0_0, main_v0_1].toFinset := by decide

/-- A window's array is a whole buffer: held through its view it is the buffer held whole. -/
theorem warr (c : Dev nD) (w : Fin 8) :
    (View.loc (c.tc : Thread nD τ) (cfg0.win w).arr.view ↦[(cfg0.win w).arr.view.set]{(dats m 0 c).share w} (dats m 0 c).arrAt w 0 : sProp 𝕄)
      = ((c.tc : Thread nD τ).loc (Pipeline.arrRef spec0 w) ↦{(dats m 0 c).share w} V m c (Pipeline.arrRef spec0 w)) := by
  rw [(arr_whole0 w).set_eq_univ]; rfl

/-- The state array, held whole, is dealt in halves to its two windows; every other array goes whole to its window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq _ himg (by decide), bigSep_W0]
  beta_reduce
  rw [warr m c 0, warr m c 1, warr m c 2, warr m c 3, warr m c 4, warr m c 5, warr m c 6, warr m c 7]
  show iprop(((c.tc : Thread nD τ).loc main_arg0 ↦{fullShare} V m c main_arg0) ∗ ((c.tc : Thread nD τ).loc main_arg3 ↦{fullShare} V m c main_arg3)
      ∗ ((c.tc : Thread nD τ).loc main_arg5 ↦{fullShare} V m c main_arg5) ∗ ((c.tc : Thread nD τ).loc main_arg4 ↦{fullShare} V m c main_arg4)
      ∗ ((c.tc : Thread nD τ).loc main_arg2 ↦{fullShare} V m c main_arg2)
      ∗ ((c.tc : Thread nD τ).loc main_v0_0 ↦{fullShare} V m c main_v0_0) ∗ ((c.tc : Thread nD τ).loc main_v0_1 ↦{fullShare} V m c main_v0_1))
    ⊢ iprop(((c.tc : Thread nD τ).loc main_arg0 ↦{fullShare} V m c main_arg0) ∗ ((c.tc : Thread nD τ).loc main_arg3 ↦{fullShare} V m c main_arg3)
      ∗ ((c.tc : Thread nD τ).loc main_arg5 ↦{fullShare} V m c main_arg5) ∗ ((c.tc : Thread nD τ).loc main_arg4 ↦{fullShare} V m c main_arg4)
      ∗ ((c.tc : Thread nD τ).loc main_arg2 ↦{fullShare.left} V m c main_arg2) ∗ ((c.tc : Thread nD τ).loc main_arg2 ↦{fullShare.right} V m c main_arg2)
      ∗ ((c.tc : Thread nD τ).loc main_v0_0 ↦{fullShare} V m c main_v0_0) ∗ ((c.tc : Thread nD τ).loc main_v0_1 ↦{fullShare} V m c main_v0_1))
  iintro ⟨H0, H1, H2, H3, H4, H6, H7⟩
  ihave H45 := (pointsTo_share (PosShare.mem_left_op_right fullShare)).1 $$ H4
  icases H45 with ⟨H4, H5⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The run: the pipeline's arrays end at `Dat.arrAt … N`, every other unscoped buffer as it was. -/
theorem run_main : θ_run defs (onTc (τ := τ) (main (F := F))) (s₀ m ρ) (Pipeline.FramePost cfgs (dats m) 0 (V m)) :=
  Pipeline.SharedArrays.θ_run_frame_shared cfgs (dats m) (0 : Fin 1) cellOf_inj winFacts₀0 block_pos0 arr_whole0 stage_whole0 defs₀ Variants.none m ρ main
    (hbody := fun c => (body_obligation m c).loose) (howed := fun _ _ => rfl) (V := V m)
    (hmain := Pipeline.hmain_region cfgs 0 defs₀ Variants.none m main (fun c => rfl))
    (hsplit := hsplit m) (hin := hin m) (hout := hout m)

/-- The frame: the six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).1 0).trans (((dats m 0 c).arrAt_in 0 rfl _).trans (A_eq m c 0)),
     (h c).2 main_arg1 (Pipeline.mem_restRefs_of _ rfl (by decide)),
     ((h c).1 4).trans (((dats m 0 c).arrAt_in 4 rfl _).trans (A_eq m c 4)),
     ((h c).1 1).trans (((dats m 0 c).arrAt_in 1 rfl _).trans (A_eq m c 1)),
     ((h c).1 3).trans (((dats m 0 c).arrAt_in 3 rfl _).trans (A_eq m c 3)),
     ((h c).1 2).trans (((dats m 0 c).arrAt_in 2 rfl _).trans (A_eq m c 2))⟩) (run_main m ρ)

/-- The run with the two result arrays named and the arguments unchanged. -/
theorem run_results : θ_run defs (onTc (τ := τ) (main (F := F))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).1 6, (h c).1 7,
     ((h c).1 0).trans (((dats m 0 c).arrAt_in 0 rfl _).trans (A_eq m c 0)),
     (h c).2 main_arg1 (Pipeline.mem_restRefs_of _ rfl (by decide)),
     ((h c).1 4).trans (((dats m 0 c).arrAt_in 4 rfl _).trans (A_eq m c 4)),
     ((h c).1 1).trans (((dats m 0 c).arrAt_in 1 rfl _).trans (A_eq m c 1)),
     ((h c).1 3).trans (((dats m 0 c).arrAt_in 3 rfl _).trans (A_eq m c 3)),
     ((h c).1 2).trans (((dats m 0 c).arrAt_in 2 rfl _).trans (A_eq m c 2))⟩) (run_main m ρ)

end Cert.Kernel.Hand

end
-- ==== Proof.IdealCases.lean ====
/-
  The grid of the fused reservoir step and where its two branches fire.

  The grid is (row tile i, column tile j, contraction step k) with 8 × 8 × 8 points, the contraction step innermost,
  so point t is step k = t mod 8 of the output tile t / 8. The first branch (reset the accumulator, compute the input
  and gate products) fires at k = 0; the second (combine and store the two results) at k = 7. The two result windows
  are stored only by the second branch: elsewhere they are idle and are not written back.
-/
import proofs.«174889_j37572373905508_1_alg».proof.Proof.Gen.KernelIdeal.Launch
import proofs.«174889_j37572373905508_1_alg».proof.Proof.Gen.KernelIdeal.Skeleton
import proofs.«174889_j37572373905508_1_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the grid -/

/-- The first branch's condition: the contraction step is 0. -/
abbrev cond1 (i : grid0.Coords) : Prop :=
  (Scalar.cmpi .ne (Scalar.extui (Scalar.cmpi .eq (BitVec.ofNat 32 (i 2).val) 0#32)) 0#32) = 1#1
/-- The second branch's condition: the contraction step is the last one. -/
abbrev cond2 (i : grid0.Coords) : Prop := k0_cond2 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 = 7 :=
  (by decide +kernel : ∀ t : Fin grid0.N, cond2 (grid0.coords t) ↔ t.val % 8 = 7)

/-! ## Where the windows are idle -/

/-- The six input windows are never idle. -/
theorem liveIn (w : Fin 8) (hw : w.val < 6) : ∀ i : grid0.Coords, cfg0.idle w i = false := by
  match w, hw with
  | ⟨0, _⟩, _ => exact fun _ => rfl
  | ⟨1, _⟩, _ => exact fun _ => rfl
  | ⟨2, _⟩, _ => exact fun _ => rfl
  | ⟨3, _⟩, _ => exact fun _ => rfl
  | ⟨4, _⟩, _ => exact fun _ => rfl
  | ⟨5, _⟩, _ => exact fun _ => rfl
/-- Off the last contraction step the two result windows are idle and not written back; at it they are live. -/
theorem idle6 : ∀ t : Fin cfg0.N, ¬cond2 (grid0.coords t) → cfg0.idle 6 (grid0.coords t) = true := by decide +kernel
theorem idle7 : ∀ t : Fin cfg0.N, ¬cond2 (grid0.coords t) → cfg0.idle 7 (grid0.coords t) = true := by decide +kernel
theorem noFlush6 : ∀ t : Fin cfg0.N, ¬cond2 (grid0.coords t) → (cfg0.win 6).flush t = false := by decide +kernel
theorem noFlush7 : ∀ t : Fin cfg0.N, ¬cond2 (grid0.coords t) → (cfg0.win 7).flush t = false := by decide +kernel
theorem live6 : ∀ t : Fin cfg0.N, cond2 (grid0.coords t) → cfg0.idle 6 (grid0.coords t) = false := by decide +kernel
theorem live7 : ∀ t : Fin cfg0.N, cond2 (grid0.coords t) → cfg0.idle 7 (grid0.coords t) = false := by decide +kernel

/-! ## The memrefs the body is called with -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x512 .f32 := win0_7.stage (cfg0.slots t 7)
abbrev hs7 (t : Fin cfg0.N) : (ms7 t).IsWhole := hstage0_7 ((cfg0.slots t 7).cast nbuf0_7)
/-- The three scratch operands: the accumulator of the state product, the input product, the gate. -/
abbrev scAcc : Memref sig .tc .vmem S256x512 .f32 := Memref.whole cc0_scratch0
abbrev scIn : Memref sig .tc .vmem S256x512 .f32 := Memref.whole cc0_scratch1
abbrev scGate : Memref sig .tc .vmem S256x512 .f32 := Memref.whole cc0_scratch2

/-- The core's scoped buffers that are no staging buffer are the three scratch operands, each owned at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scAcc fullShare d) ∗ (∃ d, owns (c : Thread nD τ) scIn fullShare d)
          ∗ (∃ d, owns (c : Thread nD τ) scGate fullShare d)) := by
  rw [scopedRest0_eq]; simp only [scAcc, scIn, scGate, owns_whole]; try rfl

/-- The whole-block rectangle's offset is zero on both axes. -/
theorem hz2 : (![0, 0] : Fin 2 → Nat) = fun _ => 0 := by funext a; fin_cases a <;> rfl

end Cert.KernelIdeal.Hand

end
-- ==== Proof.IdealData.lean ====
/-
  What the fused reservoir step holds between grid points, and the pipeline's proof data.

  Within one output tile (8 consecutive points, the contraction step k = t mod 8) the kernel carries three scratch
  blocks: the accumulator of the state product, reset at k = 0 and added to at every step; the input product and
  the gate, both computed at k = 0 and kept. At k = 7 the two result blocks are computed from the carried blocks and
  the state's elementwise block. The windows' arrays are the argument arrays as the region finds them (the program
  has no host operation before the region). The state array is read through two windows (the contraction operand
  and the elementwise operand), each holding half of its share.
-/
import proofs.«174889_j37572373905508_1_alg».proof.Proof.IdealCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s TensorCore buffers when the region is entered: the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The six input blocks at their literal types: the input rows, the input weights' and the gate weights' columns,
    the reservoir weights' (k, j) tile, the state's (i, k) tile and its (i, j) tile. -/
abbrev xblk (c : Dev nD) (t : Fin cfg0.N) : Vec F S256x1024 .f32 := iblk m c 0 t
abbrev wiblk (c : Dev nD) (t : Fin cfg0.N) : Vec F S1024x512 .f32 := iblk m c 1 t
abbrev wgblk (c : Dev nD) (t : Fin cfg0.N) : Vec F S1024x512 .f32 := iblk m c 2 t
abbrev wrblk (c : Dev nD) (t : Fin cfg0.N) : Vec F S512x512 .f32 := iblk m c 3 t
abbrev smblk (c : Dev nD) (t : Fin cfg0.N) : Vec F S256x512 .f32 := iblk m c 4 t
abbrev seblk (c : Dev nD) (t : Fin cfg0.N) : Vec F S256x512 .f32 := iblk m c 5 t

/-! ## The carried scratch blocks after each point -/

/-- The accumulator after point `n`: at a tile's first step the state product of that step over the zero block,
    afterwards the step's product added to what the point before left. -/
def accAt (c : Dev nD) : (n : ℕ) → n < cfg0.N → Vec F S256x512 .f32
  | 0, hn => k0_pay5 (smblk m c ⟨0, hn⟩) (wrblk m c ⟨0, hn⟩) (k0_pay1 (F := F))
  | n + 1, hn =>
    if (n + 1) % 8 = 0 then k0_pay5 (smblk m c ⟨n + 1, hn⟩) (wrblk m c ⟨n + 1, hn⟩) (k0_pay1 (F := F))
    else k0_pay5 (smblk m c ⟨n + 1, hn⟩) (wrblk m c ⟨n + 1, hn⟩) (accAt c n (Nat.lt_of_succ_lt hn))

/-- The input product after point `n`: computed at a tile's first step, kept afterwards. -/
def icAt (c : Dev nD) : (n : ℕ) → n < cfg0.N → Vec F S256x512 .f32
  | 0, hn => k0_pay3 (xblk m c ⟨0, hn⟩) (wiblk m c ⟨0, hn⟩)
  | n + 1, hn =>
    if (n + 1) % 8 = 0 then k0_pay3 (xblk m c ⟨n + 1, hn⟩) (wiblk m c ⟨n + 1, hn⟩)
    else icAt c n (Nat.lt_of_succ_lt hn)

/-- The gate after point `n`: computed at a tile's first step, kept afterwards. -/
def gateAt (c : Dev nD) : (n : ℕ) → n < cfg0.N → Vec F S256x512 .f32
  | 0, hn => k0_pay4 (xblk m c ⟨0, hn⟩) (wgblk m c ⟨0, hn⟩)
  | n + 1, hn =>
    if (n + 1) % 8 = 0 then k0_pay4 (xblk m c ⟨n + 1, hn⟩) (wgblk m c ⟨n + 1, hn⟩)
    else gateAt c n (Nat.lt_of_succ_lt hn)

theorem accAt_first (c : Dev nD) (t : Fin cfg0.N) (h : t.val % 8 = 0) :
    accAt m c t.val t.isLt = k0_pay5 (smblk m c t) (wrblk m c t) (k0_pay1 (F := F)) := by
  obtain ⟨n, hn⟩ := t
  cases n with
  | zero => rfl
  | succ n => exact if_pos h
theorem accAt_later (c : Dev nD) (t : Fin cfg0.N) (h : ¬t.val % 8 = 0) :
    accAt m c t.val t.isLt = k0_pay5 (smblk m c t) (wrblk m c t) (accAt m c (t.val - 1) (Nat.lt_of_le_of_lt (Nat.sub_le _ _) t.isLt)) := by
  obtain ⟨n, hn⟩ := t
  cases n with
  | zero => exact absurd (Nat.zero_mod _) h
  | succ n => exact if_neg h
theorem icAt_first (c : Dev nD) (t : Fin cfg0.N) (h : t.val % 8 = 0) :
    icAt m c t.val t.isLt = k0_pay3 (xblk m c t) (wiblk m c t) := by
  obtain ⟨n, hn⟩ := t
  cases n with
  | zero => rfl
  | succ n => exact if_pos h
theorem icAt_later (c : Dev nD) (t : Fin cfg0.N) (h : ¬t.val % 8 = 0) :
    icAt m c t.val t.isLt = icAt m c (t.val - 1) (Nat.lt_of_le_of_lt (Nat.sub_le _ _) t.isLt) := by
  obtain ⟨n, hn⟩ := t
  cases n with
  | zero => exact absurd (Nat.zero_mod _) h
  | succ n => exact if_neg h
theorem gateAt_first (c : Dev nD) (t : Fin cfg0.N) (h : t.val % 8 = 0) :
    gateAt m c t.val t.isLt = k0_pay4 (xblk m c t) (wgblk m c t) := by
  obtain ⟨n, hn⟩ := t
  cases n with
  | zero => rfl
  | succ n => exact if_pos h
theorem gateAt_later (c : Dev nD) (t : Fin cfg0.N) (h : ¬t.val % 8 = 0) :
    gateAt m c t.val t.isLt = gateAt m c (t.val - 1) (Nat.lt_of_le_of_lt (Nat.sub_le _ _) t.isLt) := by
  obtain ⟨n, hn⟩ := t
  cases n with
  | zero => exact absurd (Nat.zero_mod _) h
  | succ n => exact if_neg h

/-- The two result blocks the last step of a tile stores (stated at every point; consulted only where the windows
    are live): the new state, and its threshold indicator. -/
abbrev stateOut (c : Dev nD) (t : Fin cfg0.N) : Vec F S256x512 .f32 :=
  k0_pay6 (seblk m c t) (icAt m c t.val t.isLt) (accAt m c t.val t.isLt) (gateAt m c t.val t.isLt)
abbrev spikeOut (c : Dev nD) (t : Fin cfg0.N) : Vec F S256x512 .f32 :=
  k0_pay7 (seblk m c t) (icAt m c t.val t.isLt) (accAt m c t.val t.isLt) (gateAt m c t.val t.isLt)

/-! ## The invariant between points -/

/-- Before the first point the three scratch blocks hold anything; after point `n` they hold what it left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scAcc fullShare (accAt m c n hn) ∗ owns (c : Thread nD τ) scIn fullShare (icAt m c n hn)
      ∗ owns (c : Thread nD τ) scGate fullShare (gateAt m c n hn))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scAcc fullShare (accAt m c n hn) ∗ owns (c : Thread nD τ) scIn fullShare (icAt m c n hn)
      ∗ owns (c : Thread nD τ) scGate fullShare (gateAt m c n hn)) := rfl
theorem PhiS_pos (c : Dev nD) (n : ℕ) (h : n ≤ cfg0.N) (hz : n ≠ 0) :
    PhiS m c n h = iprop(owns (c : Thread nD τ) scAcc fullShare (accAt m c (n - 1) (by omega)) ∗ owns (c : Thread nD τ) scIn fullShare (icAt m c (n - 1) (by omega))
      ∗ owns (c : Thread nD τ) scGate fullShare (gateAt m c (n - 1) (by omega))) := by
  cases n with
  | zero => exact absurd rfl hz
  | succ n => rfl

/-! ## The pipeline's proof data -/

/-- The proof data on core `c`: the arrays as the region finds them; after the body each input's buffer at its
    block, the two results' at the blocks the last step stores; the invariant above; the state array's share dealt
    in halves to its two windows, every other array held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => spikeOut m c t
    | ⟨7, _⟩ => stateOut m c t
  Φ t := PhiS m c t.val (Nat.le_of_lt_succ t.isLt)
  q w := match w with
    | ⟨4, _⟩ => fullShare.left
    | ⟨5, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = spikeOut m c t := by dsimp only [dats]
theorem after7 (c : Dev nD) (t : Fin cfg0.N) : (dats m 0 c).after 7 t = stateOut m c t := by dsimp only [dats]

/-- Each input's current staging buffer holds its block at every point, fetched there or not: the body leaves an
    input block in place, and an unfetched window's block index has not moved. -/
theorem before0 (c : Dev nD) (t : Fin cfg0.N) (d) : (dats m 0 c).before 0 t d = iblk m c 0 t :=
  ((dats m 0 c).before_in_eq_fetched 0 rfl (liveIn 0 (by decide)) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (liveIn 1 (by decide)) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (liveIn 2 (by decide)) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (liveIn 3 (by decide)) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (liveIn 4 (by decide)) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (liveIn 5 (by decide)) (fun _ _ _ => rfl) (fun t => by rw [after5]; unfold Dat.blockOf iblk; rw [A_eq]; try rfl) t d).trans
    (by unfold Dat.fetched Dat.blockOf iblk; rw [A_eq]; try rfl)

end Cert.KernelIdeal.Hand

end
-- ==== Proof.IdealBodyA.lean ====
/-
  The kernel body of the fused reservoir step, at the first contraction step of a tile: the accumulator is zeroed, the input product and the gate are computed and stored, then the step's state product is added to the zero accumulator, on any whole staging and scratch memrefs. Every load and store
  of the body moves a whole block, so a buffer reads back the payload of the last store into it. The case is stated
  with the continuation as a parameter, so that it frames every buffer it does not name.
-/
import proofs.«174889_j37572373905508_1_alg».proof.Proof.IdealCases
import proofs.«174889_j37572373905508_1_alg».proof.Proof.LibWholeStore
import proofs.«174889_j37572373905508_1_alg».proof.Proof.LibWholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A VMEM memref of f32. -/
abbrev M (S : Shape) := Memref sig .tc .vmem S .f32

set_option maxHeartbeats 1600000 in
/-- Case A: the first contraction step of a tile. -/
theorem run_A (c : Dev nD) (i : grid0.Coords)
    (a3 : M S256x1024) (h3 : a3.IsWhole) (a4 : M S1024x512) (h4 : a4.IsWhole) (a5 : M S1024x512) (h5 : a5.IsWhole)
    (a6 : M S512x512) (h6 : a6.IsWhole) (a7 : M S256x512) (h7 : a7.IsWhole) (a8 : M S256x512) (h8 : a8.IsWhole)
    (a9 : M S256x512) (h9 : a9.IsWhole) (a10 : M S256x512) (h10 : a10.IsWhole) (a11 : M S256x512) (h11 : a11.IsWhole)
    (a12 : M S256x512) (h12 : a12.IsWhole) (a13 : M S256x512) (h13 : a13.IsWhole)
    (hc1 : cond1 i) (hc2 : ¬cond2 i)
    (x0 : Vec F S256x1024 .f32) (x1 x2 : Vec F S1024x512 .f32) (x3 : Vec F S512x512 .f32) (x4 : Vec F S256x512 .f32)
    (d11 d12 d13 : Vec F S256x512 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4
        ∗ owns (c : Thread nD τ) a11 fullShare d11 ∗ owns (c : Thread nD τ) a12 fullShare d12 ∗ owns (c : Thread nD τ) a13 fullShare d13
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4
            ∗ owns (c : Thread nD τ) a11 fullShare (k0_pay5 x4 x3 (k0_pay1 (F := F)))
            ∗ owns (c : Thread nD τ) a12 fullShare (k0_pay3 x0 x1) ∗ owns (c : Thread nD τ) a13 fullShare (k0_pay4 x0 x2)) -∗ K ⟨⟩))
      ⊢ wp frame (wpE (defs₀ (F := F)) Variants.none c none) E (cc0__kernel i a3 h3 a4 h4 a5 h5 a6 h6 a7 h7 a8 h8 a9 h9 a10 h10 a11 h11 a12 h12 a13 h13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f11, %hf11, H11⟩, ⟨%f12, %hf12, H12⟩, ⟨%f13, %hf13, H13⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H11]
  · iexists _; isplitr
    swap; · iexact H11
    ipureintro
    sl_unfold_run_names
    rw [Cert.LibWholeRead.read_writes_cons_whole (S := S256x512) _ _ hz2]
    simp only [View.readAt_eq_ld, h6.read_unread, h7.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]
  isplitl [H12]
  · iexists _; isplitr
    swap; · iexact H12
    ipureintro
    sl_unfold_run_names
    rw [Cert.LibWholeRead.read_writes_cons_whole (S := S256x512) _ _ hz2]
    simp only [View.readAt_eq_ld, h3.read_unread, h4.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]
  · iexists _; isplitr
    swap; · iexact H13
    ipureintro
    sl_unfold_run_names
    rw [Cert.LibWholeRead.read_writes_cons_whole (S := S256x512) _ _ hz2]
    simp only [View.readAt_eq_ld, h3.read_unread, h5.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]

end Cert.KernelIdeal.Hand

end
-- ==== Proof.IdealBodyB.lean ====
/-
  The kernel body of the fused reservoir step, at a middle contraction step: the step's state product is added to the accumulator, on any whole staging and scratch memrefs. Every load and store
  of the body moves a whole block, so a buffer reads back the payload of the last store into it. The case is stated
  with the continuation as a parameter, so that it frames every buffer it does not name.
-/
import proofs.«174889_j37572373905508_1_alg».proof.Proof.IdealCases
import proofs.«174889_j37572373905508_1_alg».proof.Proof.LibWholeStore
import proofs.«174889_j37572373905508_1_alg».proof.Proof.LibWholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A VMEM memref of f32. -/
abbrev Mb (S : Shape) := Memref sig .tc .vmem S .f32

set_option maxHeartbeats 1600000 in
/-- Case B: a middle contraction step. -/
theorem run_B (c : Dev nD) (i : grid0.Coords)
    (a3 : Mb S256x1024) (h3 : a3.IsWhole) (a4 : Mb S1024x512) (h4 : a4.IsWhole) (a5 : Mb S1024x512) (h5 : a5.IsWhole)
    (a6 : Mb S512x512) (h6 : a6.IsWhole) (a7 : Mb S256x512) (h7 : a7.IsWhole) (a8 : Mb S256x512) (h8 : a8.IsWhole)
    (a9 : Mb S256x512) (h9 : a9.IsWhole) (a10 : Mb S256x512) (h10 : a10.IsWhole) (a11 : Mb S256x512) (h11 : a11.IsWhole)
    (a12 : Mb S256x512) (h12 : a12.IsWhole) (a13 : Mb S256x512) (h13 : a13.IsWhole)
    (hc1 : ¬cond1 i) (hc2 : ¬cond2 i)
    (x3 : Vec F S512x512 .f32) (x4 : Vec F S256x512 .f32) (acc : Vec F S256x512 .f32)
    (E : Set ℕ) (K : PUnit → sProp 𝕄) :
    iprop(owns (c : Thread nD τ) a6 fullShare x3 ∗ owns (c : Thread nD τ) a7 fullShare x4 ∗ owns (c : Thread nD τ) a11 fullShare acc
        ∗ (iprop(owns (c : Thread nD τ) a6 fullShare x3 ∗ owns (c : Thread nD τ) a7 fullShare x4
            ∗ owns (c : Thread nD τ) a11 fullShare (k0_pay5 x4 x3 acc)) -∗ K ⟨⟩))
      ⊢ wp frame (wpE (defs₀ (F := F)) Variants.none c none) E (cc0__kernel i a3 h3 a4 h4 a5 h5 a6 h6 a7 h7 a8 h8 a9 h9 a10 h10 a11 h11 a12 h12 a13 h13) K := by
  simp only [cc0__kernel_eq_skeleton]; unfold cc0__kernel_skel
  unfold owns
  iintro ⟨⟨%f3, %hf3, H3⟩, ⟨%f4, %hf4, H4⟩, ⟨%f11, %hf11, H11⟩, Hk⟩
  obtain rfl := h6.eq_unread hf3; obtain rfl := h7.eq_unread hf4; obtain rfl := h11.eq_unread hf11
  sl_exec (disch := first | exact hc1 | exact hc2)
  sl_step
  iapply Hk
  isplitl [H3]
  · iexists _; isplitr; · ipureintro; exact h6.read_unread _
    iexact H3
  isplitl [H4]
  · iexists _; isplitr; · ipureintro; exact h7.read_unread _
    iexact H4
  iexists _; isplitr
  swap; · iexact H11
  ipureintro
  sl_unfold_run_names
  rw [Cert.LibWholeRead.read_writes_cons_whole (S := S256x512) _ _ hz2]
  simp only [View.readAt_eq_ld, h6.read_unread, h7.read_unread, h11.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]

end Cert.KernelIdeal.Hand

end
-- ==== Proof.IdealBodyC.lean ====
/-
  The kernel body of the fused reservoir step, at the last contraction step of a tile: the step's product is added to the accumulator, then the two result blocks are computed from the carried blocks and the state's elementwise block and stored, on any whole staging and scratch memrefs. Every load and store
  of the body moves a whole block, so a buffer reads back the payload of the last store into it. The case is stated
  with the continuation as a parameter, so that it frames every buffer it does not name.
-/
import proofs.«174889_j37572373905508_1_alg».proof.Proof.IdealCases
import proofs.«174889_j37572373905508_1_alg».proof.Proof.LibWholeStore
import proofs.«174889_j37572373905508_1_alg».proof.Proof.LibWholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A VMEM memref of f32. -/
abbrev Mc (S : Shape) := Memref sig .tc .vmem S .f32

set_option maxHeartbeats 1600000 in
/-- Case C: the last contraction step of a tile. -/
theorem run_C (c : Dev nD) (i : grid0.Coords)
    (a3 : Mc S256x1024) (h3 : a3.IsWhole) (a4 : Mc S1024x512) (h4 : a4.IsWhole) (a5 : Mc S1024x512) (h5 : a5.IsWhole)
    (a6 : Mc S512x512) (h6 : a6.IsWhole) (a7 : Mc S256x512) (h7 : a7.IsWhole) (a8 : Mc S256x512) (h8 : a8.IsWhole)
    (a9 : Mc S256x512) (h9 : a9.IsWhole) (a10 : Mc S256x512) (h10 : a10.IsWhole) (a11 : Mc S256x512) (h11 : a11.IsWhole)
    (a12 : Mc S256x512) (h12 : a12.IsWhole) (a13 : Mc S256x512) (h13 : a13.IsWhole)
    (hc1 : ¬cond1 i) (hc2 : cond2 i)
    (x3 : Vec F S512x512 .f32) (x4 x5 : Vec F S256x512 .f32) (d9 d10 acc ic gate : Vec F S256x512 .f32)
    (E : Set ℕ) (K : PUnit → sProp 𝕄) :
    iprop(owns (c : Thread nD τ) a6 fullShare x3 ∗ owns (c : Thread nD τ) a7 fullShare x4 ∗ owns (c : Thread nD τ) a8 fullShare x5
        ∗ owns (c : Thread nD τ) a9 fullShare d9 ∗ owns (c : Thread nD τ) a10 fullShare d10
        ∗ owns (c : Thread nD τ) a11 fullShare acc ∗ owns (c : Thread nD τ) a12 fullShare ic ∗ owns (c : Thread nD τ) a13 fullShare gate
        ∗ (iprop(owns (c : Thread nD τ) a6 fullShare x3 ∗ owns (c : Thread nD τ) a7 fullShare x4 ∗ owns (c : Thread nD τ) a8 fullShare x5
            ∗ owns (c : Thread nD τ) a9 fullShare (k0_pay7 x5 ic (k0_pay5 x4 x3 acc) gate)
            ∗ owns (c : Thread nD τ) a10 fullShare (k0_pay6 x5 ic (k0_pay5 x4 x3 acc) gate)
            ∗ owns (c : Thread nD τ) a11 fullShare (k0_pay5 x4 x3 acc)
            ∗ owns (c : Thread nD τ) a12 fullShare ic ∗ owns (c : Thread nD τ) a13 fullShare gate) -∗ K ⟨⟩))
      ⊢ wp frame (wpE (defs₀ (F := F)) Variants.none c none) E (cc0__kernel i a3 h3 a4 h4 a5 h5 a6 h6 a7 h7 a8 h8 a9 h9 a10 h10 a11 h11 a12 h12 a13 h13) K := by
  simp only [cc0__kernel_eq_skeleton]; unfold cc0__kernel_skel
  unfold owns
  iintro ⟨⟨%f3, %hf3, H3⟩, ⟨%f4, %hf4, H4⟩, ⟨%f5, %hf5, H5⟩, ⟨%f9, %hf9, H9⟩, ⟨%f10, %hf10, H10⟩, ⟨%f11, %hf11, H11⟩, ⟨%f12, %hf12, H12⟩, ⟨%f13, %hf13, H13⟩, Hk⟩
  obtain rfl := h6.eq_unread hf3; obtain rfl := h7.eq_unread hf4; obtain rfl := h8.eq_unread hf5
  obtain rfl := h11.eq_unread hf11; obtain rfl := h12.eq_unread hf12; obtain rfl := h13.eq_unread hf13
  sl_exec (disch := first | exact hc1 | exact hc2)
  sl_step
  iapply Hk
  isplitl [H3]
  · iexists _; isplitr; · ipureintro; exact h6.read_unread _
    iexact H3
  isplitl [H4]
  · iexists _; isplitr; · ipureintro; exact h7.read_unread _
    iexact H4
  isplitl [H5]
  · iexists _; isplitr; · ipureintro; exact h8.read_unread _
    iexact H5
  isplitl [H9]
  · iexists _; isplitr
    swap; · iexact H9
    ipureintro
    sl_unfold_run_names
    rw [Cert.LibWholeRead.read_writes_cons_whole (S := S256x512) _ _ hz2]
    simp only [View.readAt_eq_ld, h6.read_unread, h7.read_unread, h8.read_unread, h11.read_unread, h12.read_unread, h13.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]
  isplitl [H10]
  · iexists _; isplitr
    swap; · iexact H10
    ipureintro
    sl_unfold_run_names
    rw [Cert.LibWholeRead.read_writes_cons_whole (S := S256x512) _ _ hz2]
    simp only [View.readAt_eq_ld, h6.read_unread, h7.read_unread, h8.read_unread, h11.read_unread, h12.read_unread, h13.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]
  isplitl [H11]
  · iexists _; isplitr
    swap; · iexact H11
    ipureintro
    sl_unfold_run_names
    rw [Cert.LibWholeRead.read_writes_cons_whole (S := S256x512) _ _ hz2]
    simp only [View.readAt_eq_ld, h6.read_unread, h7.read_unread, h11.read_unread, View.ld_unit_zero (S := S256x512) hz2, View.ld_unit_zero (S := S512x512) hz2, View.ld_unit_zero (S := S256x1024) hz2, View.ld_unit_zero (S := S1024x512) hz2, View.readCov_unit_zero (S := S256x512) _ hz2, Cert.LibWholeStore.readCov_cons_whole (S := S256x512) _ hz2]
  isplitl [H12]
  · iexists _; isplitr; · ipureintro; exact h12.read_unread _
    iexact H12
  · iexists _; isplitr; · ipureintro; exact h13.read_unread _
    iexact H13

end Cert.KernelIdeal.Hand

end
-- ==== Proof.IdealOblig.lean ====
/-
  The body obligation of the pipeline: at every grid point the kernel body, started from the invariant and the
  windows' current buffers, ends in the invariant of the next point with every live window's buffer at what the proof
  data say. By cases on the contraction step: 0 (case A), 7 (case C), any other (case B).
-/
import proofs.«174889_j37572373905508_1_alg».proof.Proof.IdealData
import proofs.«174889_j37572373905508_1_alg».proof.Proof.IdealBodyA
import proofs.«174889_j37572373905508_1_alg».proof.Proof.IdealBodyB
import proofs.«174889_j37572373905508_1_alg».proof.Proof.IdealBodyC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The obligation's two sides, the windows one by one -/

/-- What the body is called with at point `t`: the invariant, what the core owes, and the eight windows' current
    buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

/-! ## The input windows are live everywhere: the body leaves each buffer at its block -/

theorem leaves0 (c : Dev nD) (t : Fin cfg0.N) :
    (dats m 0 c).leavesExact 0 t = owns (c : Thread nD τ) (ms0 t) fullShare (xblk m c t) := by
  unfold Dat.leavesExact; rw [liveIn 0 (by decide) _, after0]
theorem leaves1 (c : Dev nD) (t : Fin cfg0.N) :
    (dats m 0 c).leavesExact 1 t = owns (c : Thread nD τ) (ms1 t) fullShare (wiblk m c t) := by
  unfold Dat.leavesExact; rw [liveIn 1 (by decide) _, after1]
theorem leaves2 (c : Dev nD) (t : Fin cfg0.N) :
    (dats m 0 c).leavesExact 2 t = owns (c : Thread nD τ) (ms2 t) fullShare (wgblk m c t) := by
  unfold Dat.leavesExact; rw [liveIn 2 (by decide) _, after2]
theorem leaves3 (c : Dev nD) (t : Fin cfg0.N) :
    (dats m 0 c).leavesExact 3 t = owns (c : Thread nD τ) (ms3 t) fullShare (wrblk m c t) := by
  unfold Dat.leavesExact; rw [liveIn 3 (by decide) _, after3]
theorem leaves4 (c : Dev nD) (t : Fin cfg0.N) :
    (dats m 0 c).leavesExact 4 t = owns (c : Thread nD τ) (ms4 t) fullShare (smblk m c t) := by
  unfold Dat.leavesExact; rw [liveIn 4 (by decide) _, after4]
theorem leaves5 (c : Dev nD) (t : Fin cfg0.N) :
    (dats m 0 c).leavesExact 5 t = owns (c : Thread nD τ) (ms5 t) fullShare (seblk m c t) := by
  unfold Dat.leavesExact; rw [liveIn 5 (by decide) _, after5]

/-- At a tile's last step the two result windows are live: the body leaves their buffers at the stored blocks. -/
theorem leaves6 (c : Dev nD) (t : Fin cfg0.N) (hc2 : cond2 (grid0.coords t)) :
    (dats m 0 c).leavesExact 6 t = owns (c : Thread nD τ) (ms6 t) fullShare
      (k0_pay7 (seblk m c t) (icAt m c t.val t.isLt) (accAt m c t.val t.isLt) (gateAt m c t.val t.isLt)) := by
  unfold Dat.leavesExact; rw [live6 t hc2, after6]
theorem leaves7 (c : Dev nD) (t : Fin cfg0.N) (hc2 : cond2 (grid0.coords t)) :
    (dats m 0 c).leavesExact 7 t = owns (c : Thread nD τ) (ms7 t) fullShare
      (k0_pay6 (seblk m c t) (icAt m c t.val t.isLt) (accAt m c t.val t.isLt) (gateAt m c t.val t.isLt)) := by
  unfold Dat.leavesExact; rw [live7 t hc2, after7]

/-- Before any point the invariant holds the three scratch blocks, at some contents. -/
theorem Phi_some (c : Dev nD) (t : Fin cfg0.N) :
    (dats m 0 c).Φ t.castSucc ⊢ (iprop((∃ d, owns (c : Thread nD τ) scAcc fullShare d) ∗ (∃ d, owns (c : Thread nD τ) scIn fullShare d)
      ∗ (∃ d, owns (c : Thread nD τ) scGate fullShare d)) : sProp 𝕄) := by
  rw [PhiS_castSucc m c t]
  by_cases hz : t.val = 0
  · rw [PhiS_zero m c _ _ hz, scopedRest_owns]
  · rw [PhiS_pos m c _ _ hz]
    iintro ⟨H1, H2, H3⟩
    isplitl [H1]; · iexists _; iexact H1
    isplitl [H2]; · iexists _; iexact H2
    iexists _; iexact H3

/-- Before a point that is not a tile's first the invariant holds the three scratch blocks as the point before left them. -/
theorem Phi_prev (c : Dev nD) (t : Fin cfg0.N) (h0 : ¬t.val % 8 = 0) :
    (dats m 0 c).Φ t.castSucc = iprop(owns (c : Thread nD τ) scAcc fullShare (accAt m c (t.val - 1) (Nat.lt_of_le_of_lt (Nat.sub_le _ _) t.isLt))
      ∗ owns (c : Thread nD τ) scIn fullShare (icAt m c (t.val - 1) (Nat.lt_of_le_of_lt (Nat.sub_le _ _) t.isLt))
      ∗ owns (c : Thread nD τ) scGate fullShare (gateAt m c (t.val - 1) (Nat.lt_of_le_of_lt (Nat.sub_le _ _) t.isLt))) := by
  rw [PhiS_castSucc m c t, PhiS_pos m c _ _ (fun hz => h0 (by rw [hz]))]

/-! ## The body, case by case -/

set_option maxHeartbeats 1600000 in
/-- A tile's first step: the scratch blocks are overwritten whatever they held. -/
theorem sound_A (c : Dev nD) (t : Fin cfg0.N) (h0 : t.val % 8 = 0) :
    bodyPre m c t ⊢ wp frame (wpE (defs₀ (F := F)) Variants.none c none) Set.univ (bodyAt0 t) (fun _ => bodyPost m c t) := by
  have hc1 : cond1 (grid0.coords t) := (hcond1 t).mpr h0
  have hc2 : ¬cond2 (grid0.coords t) := fun h => by have := (hcond2 t).mp h; omega
  unfold bodyPre bodyPost bodyAt0
  simp only [before0 m, before1 m, before2 m, before3 m, before4 m, before5 m]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t, leaves5 m c t]
  rw [Dat.leavesExact_idle (dats m 0 c) 6 t (idle6 t hc2) (noFlush6 t hc2),
    Dat.leavesExact_idle (dats m 0 c) 7 t (idle7 t hc2) (noFlush7 t hc2)]
  rw [accAt_first m c t h0, icAt_first m c t h0, gateAt_first m c t h0]
  refine (sep_mono (Phi_some m c t) .rfl).trans ?_
  iintro ⟨⟨⟨%e1, S1⟩, ⟨%e2, S2⟩, ⟨%e3, S3⟩⟩, Ho, ⟨%d0, H0⟩, ⟨%d1, H1⟩, ⟨%d2, H2⟩, ⟨%d3, H3⟩, ⟨%d4, H4⟩, ⟨%d5, H5⟩, H6, H7⟩
  iapply (run_A c (grid0.coords t) _ _ _ _ _ _ _ _ _ _ _ _ _ _ _ _ _ _ _ _ _ _ hc1 hc2
    (xblk m c t) (wiblk m c t) (wgblk m c t) (wrblk m c t) (smblk m c t) e1 e2 e3 Set.univ _)
  isplitl [H0]; · iexact H0
  isplitl [H1]; · iexact H1
  isplitl [H2]; · iexact H2
  isplitl [H3]; · iexact H3
  isplitl [H4]; · iexact H4
  isplitl [S1]; · iexact S1
  isplitl [S2]; · iexact S2
  isplitl [S3]; · iexact S3
  iintro ⟨H0, H1, H2, H3, H4, S1, S2, S3⟩
  isplitl [S1 S2 S3]
  · isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- A middle step: the step's product is added to the accumulator, the other two scratch blocks are kept. -/
theorem sound_B (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  have hc1 : ¬cond1 (grid0.coords t) := fun h => h0 ((hcond1 t).mp h)
  have hc2 : ¬cond2 (grid0.coords t) := fun h => h7 ((hcond2 t).mp h)
  unfold bodyPre bodyPost bodyAt0
  simp only [before0 m, before1 m, before2 m, before3 m, before4 m, before5 m]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t, leaves5 m c t]
  rw [Dat.leavesExact_idle (dats m 0 c) 6 t (idle6 t hc2) (noFlush6 t hc2),
    Dat.leavesExact_idle (dats m 0 c) 7 t (idle7 t hc2) (noFlush7 t hc2)]
  rw [accAt_later m c t h0, icAt_later m c t h0, gateAt_later m c t h0, Phi_prev m c t h0]
  iintro ⟨⟨S1, S2, S3⟩, Ho, ⟨%d0, H0⟩, ⟨%d1, H1⟩, ⟨%d2, H2⟩, ⟨%d3, H3⟩, ⟨%d4, H4⟩, ⟨%d5, H5⟩, H6, H7⟩
  iapply (run_B c (grid0.coords t) _ _ _ _ _ _ _ _ _ _ _ _ _ _ _ _ _ _ _ _ _ _ hc1 hc2
    (wrblk m c t) (smblk m c t) (accAt m c (t.val - 1) (Nat.lt_of_le_of_lt (Nat.sub_le _ _) t.isLt)) Set.univ _)
  isplitl [H3]; · iexact H3
  isplitl [H4]; · iexact H4
  isplitl [S1]; · iexact S1
  iintro ⟨H3, H4, S1⟩
  isplitl [S1 S2 S3]
  · isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- A tile's last step: the accumulator takes the last product, and the two result blocks are stored. -/
theorem sound_C (c : Dev nD) (t : Fin cfg0.N) (h7 : t.val % 8 = 7) :
    bodyPre m c t ⊢ wp frame (wpE (defs₀ (F := F)) Variants.none c none) Set.univ (bodyAt0 t) (fun _ => bodyPost m c t) := by
  have h0 : ¬t.val % 8 = 0 := by omega
  have hc1 : ¬cond1 (grid0.coords t) := fun h => h0 ((hcond1 t).mp h)
  have hc2 : cond2 (grid0.coords t) := (hcond2 t).mpr h7
  unfold bodyPre bodyPost bodyAt0
  simp only [before0 m, before1 m, before2 m, before3 m, before4 m, before5 m]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t, leaves5 m c t,
    leaves6 m c t hc2, leaves7 m c t hc2]
  rw [accAt_later m c t h0, icAt_later m c t h0, gateAt_later m c t h0, Phi_prev m c t h0]
  iintro ⟨⟨S1, S2, S3⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_C c (grid0.coords t) _ _ _ _ _ _ _ _ _ _ _ _ _ _ _ _ _ _ _ _ _ _ hc1 hc2
    (wrblk m c t) (smblk m c t) (seblk m c t) ((dats m 0 c).before 6 t d6) ((dats m 0 c).before 7 t d7)
    (accAt m c (t.val - 1) (Nat.lt_of_le_of_lt (Nat.sub_le _ _) t.isLt))
    (icAt m c (t.val - 1) (Nat.lt_of_le_of_lt (Nat.sub_le _ _) t.isLt))
    (gateAt m c (t.val - 1) (Nat.lt_of_le_of_lt (Nat.sub_le _ _) t.isLt)) Set.univ _)
  isplitl [H3]; · iexact H3
  isplitl [H4]; · iexact H4
  isplitl [H5]; · iexact H5
  isplitl [H6]; · iexact H6
  isplitl [H7]; · iexact H7
  isplitl [S1]; · iexact S1
  isplitl [S2]; · iexact S2
  isplitl [S3]; · iexact S3
  iintro ⟨H3, H4, H5, H6, H7, S1, S2, S3⟩
  isplitl [S1 S2 S3]
  · isplitl [S1]; · iexact S1
    isplitl [S2]; · iexact S2
    iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point, by the contraction step. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0
  · by_cases h7 : t.val % 8 = 7
    · exact sound_C m c t h7
    · exact sound_B m c t h0 h7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the invariant gives the scratch buffers back, their contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  have hN : cfg0.N ≠ 0 := by have : cfg0.N = 512 := N_0; omega
  rw [show (dats m 0 c).Φ (Fin.last cfg0.N) = PhiS m c cfg0.N (Nat.le_refl _) from rfl, PhiS_pos m c _ _ hN, scopedRest_owns]
  iintro ⟨H1, H2, H3⟩
  isplitl [H1]; · iexists _; iexact H1
  isplitl [H2]; · iexists _; iexact H2
  iexists _; iexact H3

end Cert.KernelIdeal.Hand

end
-- ==== Proof.IdealRun.lean ====
/-
  The run of the whole program and its frame: every weakly fair execution terminates, the two result arrays end at
  what the write-backs of the grid's points leave in them, and every argument array ends as it was.
-/
import proofs.«174889_j37572373905508_1_alg».proof.Proof.IdealOblig
import proofs.«174889_j37572373905508_1_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the eight windows' arrays: seven, the state array counted once. -/
theorem himg : Finset.univ.image (Pipeline.arrRef spec0) = [main_arg0, main_arg3, main_arg5, main_arg4, main_arg2, main_v0_0, main_v0_1].toFinset := by decide

/-- A window's array is a whole buffer: held through its view it is the buffer held whole. -/
theorem warr (c : Dev nD) (w : Fin 8) :
    (View.loc (c.tc : Thread nD τ) (cfg0.win w).arr.view ↦[(cfg0.win w).arr.view.set]{(dats m 0 c).share w} (dats m 0 c).arrAt w 0 : sProp 𝕄)
      = ((c.tc : Thread nD τ).loc (Pipeline.arrRef spec0 w) ↦{(dats m 0 c).share w} V m c (Pipeline.arrRef spec0 w)) := by
  rw [(arr_whole0 w).set_eq_univ]; rfl

/-- The state array, held whole, is dealt in halves to its two windows; every other array goes whole to its window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq _ himg (by decide), bigSep_W0]
  beta_reduce
  rw [warr m c 0, warr m c 1, warr m c 2, warr m c 3, warr m c 4, warr m c 5, warr m c 6, warr m c 7]
  show iprop(((c.tc : Thread nD τ).loc main_arg0 ↦{fullShare} V m c main_arg0) ∗ ((c.tc : Thread nD τ).loc main_arg3 ↦{fullShare} V m c main_arg3)
      ∗ ((c.tc : Thread nD τ).loc main_arg5 ↦{fullShare} V m c main_arg5) ∗ ((c.tc : Thread nD τ).loc main_arg4 ↦{fullShare} V m c main_arg4)
      ∗ ((c.tc : Thread nD τ).loc main_arg2 ↦{fullShare} V m c main_arg2)
      ∗ ((c.tc : Thread nD τ).loc main_v0_0 ↦{fullShare} V m c main_v0_0) ∗ ((c.tc : Thread nD τ).loc main_v0_1 ↦{fullShare} V m c main_v0_1))
    ⊢ iprop(((c.tc : Thread nD τ).loc main_arg0 ↦{fullShare} V m c main_arg0) ∗ ((c.tc : Thread nD τ).loc main_arg3 ↦{fullShare} V m c main_arg3)
      ∗ ((c.tc : Thread nD τ).loc main_arg5 ↦{fullShare} V m c main_arg5) ∗ ((c.tc : Thread nD τ).loc main_arg4 ↦{fullShare} V m c main_arg4)
      ∗ ((c.tc : Thread nD τ).loc main_arg2 ↦{fullShare.left} V m c main_arg2) ∗ ((c.tc : Thread nD τ).loc main_arg2 ↦{fullShare.right} V m c main_arg2)
      ∗ ((c.tc : Thread nD τ).loc main_v0_0 ↦{fullShare} V m c main_v0_0) ∗ ((c.tc : Thread nD τ).loc main_v0_1 ↦{fullShare} V m c main_v0_1))
  iintro ⟨H0, H1, H2, H3, H4, H6, H7⟩
  ihave H45 := (pointsTo_share (PosShare.mem_left_op_right fullShare)).1 $$ H4
  icases H45 with ⟨H4, H5⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The run: the pipeline's arrays end at `Dat.arrAt … N`, every other unscoped buffer as it was. -/
theorem run_main : θ_run defs (onTc (τ := τ) (main (F := F))) (s₀ m ρ) (Pipeline.FramePost cfgs (dats m) 0 (V m)) :=
  Pipeline.SharedArrays.θ_run_frame_shared cfgs (dats m) (0 : Fin 1) cellOf_inj winFacts₀0 block_pos0 arr_whole0 stage_whole0 defs₀ Variants.none m ρ main
    (hbody := fun c => (body_obligation m c).loose) (howed := fun _ _ => rfl) (V := V m)
    (hmain := Pipeline.hmain_region cfgs 0 defs₀ Variants.none m main (fun c => rfl))
    (hsplit := hsplit m) (hin := hin m) (hout := hout m)

/-- The frame: the six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).1 0).trans (((dats m 0 c).arrAt_in 0 rfl _).trans (A_eq m c 0)),
     (h c).2 main_arg1 (Pipeline.mem_restRefs_of _ rfl (by decide)),
     ((h c).1 4).trans (((dats m 0 c).arrAt_in 4 rfl _).trans (A_eq m c 4)),
     ((h c).1 1).trans (((dats m 0 c).arrAt_in 1 rfl _).trans (A_eq m c 1)),
     ((h c).1 3).trans (((dats m 0 c).arrAt_in 3 rfl _).trans (A_eq m c 3)),
     ((h c).1 2).trans (((dats m 0 c).arrAt_in 2 rfl _).trans (A_eq m c 2))⟩) (run_main m ρ)

/-- The run with the two result arrays named and the arguments unchanged. -/
theorem run_results : θ_run defs (onTc (τ := τ) (main (F := F))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).1 6, (h c).1 7,
     ((h c).1 0).trans (((dats m 0 c).arrAt_in 0 rfl _).trans (A_eq m c 0)),
     (h c).2 main_arg1 (Pipeline.mem_restRefs_of _ rfl (by decide)),
     ((h c).1 4).trans (((dats m 0 c).arrAt_in 4 rfl _).trans (A_eq m c 4)),
     ((h c).1 1).trans (((dats m 0 c).arrAt_in 1 rfl _).trans (A_eq m c 1)),
     ((h c).1 3).trans (((dats m 0 c).arrAt_in 3 rfl _).trans (A_eq m c 3)),
     ((h c).1 2).trans (((dats m 0 c).arrAt_in 2 rfl _).trans (A_eq m c 2))⟩) (run_main m ρ)

end Cert.KernelIdeal.Hand

end
-- ==== Proof.Spec.lean ====
/-
  The gated leaky-integrator step as one function of the argument arrays, entry by entry, on the extended reals.

  With x the inputs [2048, 1024], s the reservoir state [2048, 4096], W_in and W_g the input and gate weights
  [1024, 4096] and W_r the reservoir weights [4096, 4096], the new state at (r, q) is

      (c₉ · s(r, q) + c₁ · tanh (Σ_d x(r, d) · W_in(d, q) + Σ_e s(r, e) · W_r(e, q))) · σ(Σ_d x(r, d) · W_g(d, q))

  where c₉ and c₁ are the binary32 literals both programs carry for 0.9 and 0.1 and σ is the logistic function; the
  spike output at (r, q) is 1 where the new state exceeds one half and 0 elsewhere.
-/
import Idealize.ShloMosaic.Lib.ValueIdx
import Idealize.ShloMosaic.PureOps.Ideal

open scoped BigOperators

noncomputable section

namespace Cert.Spec

open Idealize.ShloMosaic Idealize.ShloMosaic.ValueIdx

abbrev SX : Shape := ⟨2, ![2048, 1024]⟩
abbrev SS : Shape := ⟨2, ![2048, 4096]⟩
abbrev SW : Shape := ⟨2, ![1024, 4096]⟩
abbrev SR : Shape := ⟨2, ![4096, 4096]⟩

/-- The product of the inputs with a [1024, 4096] weight matrix at (r, q). -/
def inProd (x : SX.Idx → EReal) (w : SW.Idx → EReal) (r : Fin 2048) (q : Fin 4096) : EReal :=
  ∑ d : Fin 1024, x (ix2 r d) * w (ix2 d q)

/-- The product of the state with the reservoir weights at (r, q). -/
def stProd (s : SS.Idx → EReal) (wr : SR.Idx → EReal) (r : Fin 2048) (q : Fin 4096) : EReal :=
  ∑ e : Fin 4096, s (ix2 r e) * wr (ix2 e q)

/-- The new state at (r, q). -/
def newStateAt (x : SX.Idx → EReal) (s : SS.Idx → EReal) (wi : SW.Idx → EReal) (wr : SR.Idx → EReal) (wg : SW.Idx → EReal)
    (r : Fin 2048) (q : Fin 4096) : EReal :=
  (Ideal.ofBits .f32 0x3F666666#32 * s (ix2 r q)
      + Ideal.ofBits .f32 0x3DCCCCCD#32 * Ideal.tanh (inProd x wi r q + stProd s wr r q))
    * Ideal.logistic (inProd x wg r q)

/-- The spike output at (r, q): one where the new state exceeds one half, zero elsewhere. -/
def spikeAt (x : SX.Idx → EReal) (s : SS.Idx → EReal) (wi : SW.Idx → EReal) (wr : SR.Idx → EReal) (wg : SW.Idx → EReal)
    (r : Fin 2048) (q : Fin 4096) : EReal :=
  Scalar.select (Ideal.cmp .ogt (newStateAt x s wi wr wg r q) (Ideal.ofBits .f32 0x3F000000#32))
    (Ideal.ofBits .f32 0x3F800000#32) (Ideal.ofBits .f32 0x00000000#32)

/-- The two results as whole arrays. -/
def newState (x : SX.Idx → EReal) (s : SS.Idx → EReal) (wi : SW.Idx → EReal) (wr : SR.Idx → EReal) (wg : SW.Idx → EReal) :
    SS.Idx → EReal := fun j => newStateAt x s wi wr wg (j 0) (j 1)
def spike (x : SX.Idx → EReal) (s : SS.Idx → EReal) (wi : SW.Idx → EReal) (wr : SR.Idx → EReal) (wg : SW.Idx → EReal) :
    SS.Idx → EReal := fun j => spikeAt x s wi wr wg (j 0) (j 1)

end Cert.Spec

end
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.IdealValue.lean ====
/-
  What the kernel's two result arrays hold after the run, at the ideal values: the gated leaky-integrator step of the
  argument arrays, entry by entry.

  Within an output tile the accumulator after step k is the sum of the first k + 1 block products of the state's row
  with the reservoir weights' column; after the last step it is the whole product, the contraction's 4096 terms cut
  into 8 consecutive blocks of 512. The input product and the gate are computed once at step 0 from whole rows and
  columns. The last step's two stores are then the step's formula at the tile's entries, and the tiles cover the arrays.
-/
import proofs.«174889_j37572373905508_1_alg».proof.Proof.IdealData
import proofs.«174889_j37572373905508_1_alg».proof.Proof.Spec
import proofs.«174889_j37572373905508_1_alg».proof.Proof.LibBlockSum
import proofs.«174889_j37572373905508_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand
open scoped BigOperators

/-! ## The payloads at an entry -/

/-- The zero block at an entry. -/
theorem pay1_apply (p : Fin 256) (qq : Fin 512) : (k0_pay1 (F := Ideal)) (ix2 p qq) = 0 := by
  unfold k0_pay1
  rw [shapeCast_self]
  exact Ideal.ofBits_zero_f32

/-- One contraction step at an entry: what the accumulator held plus the step's 512 products. -/
theorem pay5_apply (a : Vec Ideal S256x512 .f32) (b : Vec Ideal S512x512 .f32) (acc : Vec Ideal S256x512 .f32) (p : Fin 256) (qq : Fin 512) :
    k0_pay5 a b acc (ix2 p qq) = acc (ix2 p qq) + ∑ l : Fin 512, a (ix2 p l) * b (ix2 l qq) := by
  unfold k0_pay5
  rw [shapeCast_self]
  refine (addf_apply _ _ _).trans ?_
  congr 1
  exact PlainMatmul.matmul_zero_apply dot_S256x512_S512x512_S256x512_1_0_0_1_n_n _ rfl none _ _ p qq

/-- The input product at an entry. -/
theorem pay3_apply (a : Vec Ideal S256x1024 .f32) (b : Vec Ideal S1024x512 .f32) (p : Fin 256) (qq : Fin 512) :
    k0_pay3 a b (ix2 p qq) = ∑ d : Fin 1024, a (ix2 p d) * b (ix2 d qq) := by
  unfold k0_pay3 k0_pay2
  rw [shapeCast_self]
  exact PlainMatmul.matmul_zero_apply dot_S256x1024_S1024x512_S256x512_1_0_0_1_n_n _ rfl none _ _ p qq

/-- The gate at an entry. -/
theorem pay4_apply (a : Vec Ideal S256x1024 .f32) (b : Vec Ideal S1024x512 .f32) (p : Fin 256) (qq : Fin 512) :
    k0_pay4 a b (ix2 p qq) = Ideal.logistic (∑ d : Fin 1024, a (ix2 p d) * b (ix2 d qq)) := by
  unfold k0_pay4 k0_pay2
  rw [shapeCast_self]
  show Ideal.logistic _ = _
  congr 1
  exact PlainMatmul.matmul_zero_apply dot_S256x1024_S1024x512_S256x512_1_0_0_1_n_n _ rfl none _ _ p qq

/-- The new state's block at an entry. -/
theorem pay6_apply (e ic acc g : Vec Ideal S256x512 .f32) (p : Fin 256) (qq : Fin 512) :
    k0_pay6 e ic acc g (ix2 p qq) = (Ideal.ofBits .f32 0x3F666666#32 * e (ix2 p qq)
      + Ideal.ofBits .f32 0x3DCCCCCD#32 * Ideal.tanh (ic (ix2 p qq) + acc (ix2 p qq))) * g (ix2 p qq) := rfl

/-- The spike block at an entry. -/
theorem pay7_apply (e ic acc g : Vec Ideal S256x512 .f32) (p : Fin 256) (qq : Fin 512) :
    k0_pay7 e ic acc g (ix2 p qq) = Scalar.select (Ideal.cmp .ogt (k0_pay6 e ic acc g (ix2 p qq)) (Ideal.ofBits .f32 0x3F000000#32))
      (Ideal.ofBits .f32 0x3F800000#32) (Ideal.ofBits .f32 0x00000000#32) := rfl

/-! ## Where the windows' blocks sit, and the input blocks at an entry -/

variable (m : (ℓ : Loc nD τ sig) → Buf (Elt Ideal) ℓ)

theorem idx_facts : ∀ t : Fin cfg0.N,
    win0_0.index t (0 : Fin 2) = t.val / 64 ∧ win0_0.index t (1 : Fin 2) = 0
    ∧ win0_1.index t (0 : Fin 2) = 0 ∧ win0_1.index t (1 : Fin 2) = t.val / 8 % 8
    ∧ win0_2.index t (0 : Fin 2) = 0 ∧ win0_2.index t (1 : Fin 2) = t.val / 8 % 8
    ∧ win0_3.index t (0 : Fin 2) = t.val % 8 ∧ win0_3.index t (1 : Fin 2) = t.val / 8 % 8
    ∧ win0_4.index t (0 : Fin 2) = t.val / 64 ∧ win0_4.index t (1 : Fin 2) = t.val % 8
    ∧ win0_5.index t (0 : Fin 2) = t.val / 64 ∧ win0_5.index t (1 : Fin 2) = t.val / 8 % 8
    ∧ win0_6.index t (0 : Fin 2) = t.val / 64 ∧ win0_6.index t (1 : Fin 2) = t.val / 8 % 8
    ∧ win0_7.index t (0 : Fin 2) = t.val / 64 ∧ win0_7.index t (1 : Fin 2) = t.val / 8 % 8 :=
  (by decide +kernel : ∀ t : Fin grid0.N, _)

theorem xblk_entry (c : Dev nD) (t : Fin cfg0.N) (p : Fin 256) (d : Fin 1024) (r : Fin 2048)
    (hr : r.val = 256 * (t.val / 64) + p.val) :
    xblk m c t (ix2 p d) = (m ((c.tc : Thread nD τ).loc main_arg0) : Cert.Spec.SX.Idx → EReal) (ix2 r d) := by
  obtain ⟨e0, e1, -⟩ := idx_facts t
  show iblk m c 0 t (ix2 p d) = _
  unfold iblk
  rw [View.read_apply]
  show V m c main_arg0 _ = m (c.tc.loc main_arg0) _
  unfold V
  congr 1
  funext a
  apply Fin.ext
  match a with
  | ⟨0, _⟩ => show win0_0.index t 0 * 256 + 1 * p.val = r.val; rw [e0, hr]; omega
  | ⟨1, _⟩ => show win0_0.index t 1 * 1024 + 1 * d.val = d.val; rw [e1]; omega

theorem wiblk_entry (c : Dev nD) (t : Fin cfg0.N) (d : Fin 1024) (qq : Fin 512) (q : Fin 4096)
    (hq : q.val = 512 * (t.val / 8 % 8) + qq.val) :
    wiblk m c t (ix2 d qq) = (m ((c.tc : Thread nD τ).loc main_arg3) : Cert.Spec.SW.Idx → EReal) (ix2 d q) := by
  obtain ⟨-, -, e0, e1, -⟩ := idx_facts t
  show iblk m c 1 t (ix2 d qq) = _
  unfold iblk
  rw [View.read_apply]
  show V m c main_arg3 _ = m (c.tc.loc main_arg3) _
  unfold V
  congr 1
  funext a
  apply Fin.ext
  match a with
  | ⟨0, _⟩ => show win0_1.index t 0 * 1024 + 1 * d.val = d.val; rw [e0]; omega
  | ⟨1, _⟩ => show win0_1.index t 1 * 512 + 1 * qq.val = q.val; rw [e1, hq]; omega

theorem wgblk_entry (c : Dev nD) (t : Fin cfg0.N) (d : Fin 1024) (qq : Fin 512) (q : Fin 4096)
    (hq : q.val = 512 * (t.val / 8 % 8) + qq.val) :
    wgblk m c t (ix2 d qq) = (m ((c.tc : Thread nD τ).loc main_arg5) : Cert.Spec.SW.Idx → EReal) (ix2 d q) := by
  obtain ⟨-, -, -, -, e0, e1, -⟩ := idx_facts t
  show iblk m c 2 t (ix2 d qq) = _
  unfold iblk
  rw [View.read_apply]
  show V m c main_arg5 _ = m (c.tc.loc main_arg5) _
  unfold V
  congr 1
  funext a
  apply Fin.ext
  match a with
  | ⟨0, _⟩ => show win0_2.index t 0 * 1024 + 1 * d.val = d.val; rw [e0]; omega
  | ⟨1, _⟩ => show win0_2.index t 1 * 512 + 1 * qq.val = q.val; rw [e1, hq]; omega

theorem wrblk_entry (c : Dev nD) (t : Fin cfg0.N) (l : Fin 512) (qq : Fin 512) (e : Fin 4096) (q : Fin 4096)
    (he : e.val = 512 * (t.val % 8) + l.val) (hq : q.val = 512 * (t.val / 8 % 8) + qq.val) :
    wrblk m c t (ix2 l qq) = (m ((c.tc : Thread nD τ).loc main_arg4) : Cert.Spec.SR.Idx → EReal) (ix2 e q) := by
  obtain ⟨-, -, -, -, -, -, e0, e1, -⟩ := idx_facts t
  show iblk m c 3 t (ix2 l qq) = _
  unfold iblk
  rw [View.read_apply]
  show V m c main_arg4 _ = m (c.tc.loc main_arg4) _
  unfold V
  congr 1
  funext a
  apply Fin.ext
  match a with
  | ⟨0, _⟩ => show win0_3.index t 0 * 512 + 1 * l.val = e.val; rw [e0, he]; omega
  | ⟨1, _⟩ => show win0_3.index t 1 * 512 + 1 * qq.val = q.val; rw [e1, hq]; omega

theorem smblk_entry (c : Dev nD) (t : Fin cfg0.N) (p : Fin 256) (l : Fin 512) (r : Fin 2048) (e : Fin 4096)
    (hr : r.val = 256 * (t.val / 64) + p.val) (he : e.val = 512 * (t.val % 8) + l.val) :
    smblk m c t (ix2 p l) = (m ((c.tc : Thread nD τ).loc main_arg2) : Cert.Spec.SS.Idx → EReal) (ix2 r e) := by
  obtain ⟨-, -, -, -, -, -, -, -, e0, e1, -⟩ := idx_facts t
  show iblk m c 4 t (ix2 p l) = _
  unfold iblk
  rw [View.read_apply]
  show V m c main_arg2 _ = m (c.tc.loc main_arg2) _
  unfold V
  congr 1
  funext a
  apply Fin.ext
  match a with
  | ⟨0, _⟩ => show win0_4.index t 0 * 256 + 1 * p.val = r.val; rw [e0, hr]; omega
  | ⟨1, _⟩ => show win0_4.index t 1 * 512 + 1 * l.val = e.val; rw [e1, he]; omega

theorem seblk_entry (c : Dev nD) (t : Fin cfg0.N) (p : Fin 256) (qq : Fin 512) (r : Fin 2048) (q : Fin 4096)
    (hr : r.val = 256 * (t.val / 64) + p.val) (hq : q.val = 512 * (t.val / 8 % 8) + qq.val) :
    seblk m c t (ix2 p qq) = (m ((c.tc : Thread nD τ).loc main_arg2) : Cert.Spec.SS.Idx → EReal) (ix2 r q) := by
  obtain ⟨-, -, -, -, -, -, -, -, -, -, e0, e1, -⟩ := idx_facts t
  show iblk m c 5 t (ix2 p qq) = _
  unfold iblk
  rw [View.read_apply]
  show V m c main_arg2 _ = m (c.tc.loc main_arg2) _
  unfold V
  congr 1
  funext a
  apply Fin.ext
  match a with
  | ⟨0, _⟩ => show win0_5.index t 0 * 256 + 1 * p.val = r.val; rw [e0, hr]; omega
  | ⟨1, _⟩ => show win0_5.index t 1 * 512 + 1 * qq.val = q.val; rw [e1, hq]; omega

/-! ## The carried blocks within a tile -/

/-- The argument arrays at their literal types. -/
abbrev xA (c : Dev nD) : Cert.Spec.SX.Idx → EReal := m ((c.tc : Thread nD τ).loc main_arg0)
abbrev sA (c : Dev nD) : Cert.Spec.SS.Idx → EReal := m ((c.tc : Thread nD τ).loc main_arg2)
abbrev wiA (c : Dev nD) : Cert.Spec.SW.Idx → EReal := m ((c.tc : Thread nD τ).loc main_arg3)
abbrev wrA (c : Dev nD) : Cert.Spec.SR.Idx → EReal := m ((c.tc : Thread nD τ).loc main_arg4)
abbrev wgA (c : Dev nD) : Cert.Spec.SW.Idx → EReal := m ((c.tc : Thread nD τ).loc main_arg5)

/-- The e-th term of the state product at (r, q), as a function of every natural (zero past the contraction's range). -/
def term (s : Cert.Spec.SS.Idx → EReal) (wr : Cert.Spec.SR.Idx → EReal) (r : Fin 2048) (q : Fin 4096) (e : ℕ) : EReal :=
  if h : e < 4096 then s (ix2 r ⟨e, h⟩) * wr (ix2 ⟨e, h⟩ q) else 0

/-- The products of one contraction step are the step's 512 consecutive terms of the state product. -/
theorem step_sum (c : Dev nD) (t : Fin cfg0.N) (p : Fin 256) (qq : Fin 512) (r : Fin 2048) (q : Fin 4096)
    (hr : r.val = 256 * (t.val / 64) + p.val) (hq : q.val = 512 * (t.val / 8 % 8) + qq.val) :
    ∑ l : Fin 512, smblk m c t (ix2 p l) * wrblk m c t (ix2 l qq)
      = ∑ l : Fin 512, term (sA m c) (wrA m c) r q (512 * (t.val % 8) + l.val) := by
  refine Finset.sum_congr rfl fun l _ => ?_
  have h : 512 * (t.val % 8) + l.val < 4096 := by have := l.isLt; have := Nat.mod_lt t.val (show 0 < 8 by decide); omega
  unfold term
  rw [dif_pos h, smblk_entry m c t p l r ⟨_, h⟩ hr rfl, wrblk_entry m c t l qq ⟨_, h⟩ q rfl hq]

/-- Within a tile the accumulator after step k holds the first k + 1 blocks of the state product. -/
theorem acc_eq (c : Dev nD) : ∀ (n : ℕ) (hn : n < cfg0.N) (p : Fin 256) (qq : Fin 512) (r : Fin 2048) (q : Fin 4096),
    r.val = 256 * (n / 64) + p.val → q.val = 512 * (n / 8 % 8) + qq.val →
    accAt m c n hn (ix2 p qq) = ∑ s ∈ Finset.range (n % 8 + 1), ∑ l : Fin 512, term (sA m c) (wrA m c) r q (512 * s + l.val) := by
  intro n
  induction n with
  | zero =>
    intro hn p qq r q hr hq
    rw [accAt_first m c ⟨0, hn⟩ rfl]
    refine (pay5_apply _ _ _ p qq).trans ?_
    rw [pay1_apply, zero_add, step_sum m c ⟨0, hn⟩ p qq r q hr hq]
    show _ = ∑ s ∈ Finset.range 1, _
    rw [Finset.sum_range_one]
    rfl
  | succ n ih =>
    intro hn p qq r q hr hq
    by_cases h8 : (n + 1) % 8 = 0
    · rw [accAt_first m c ⟨n + 1, hn⟩ h8]
      refine (pay5_apply _ _ _ p qq).trans ?_
      rw [pay1_apply, zero_add, step_sum m c ⟨n + 1, hn⟩ p qq r q hr hq]
      show ∑ l : Fin 512, term (sA m c) (wrA m c) r q (512 * ((n + 1) % 8) + l.val) = _
      rw [h8, Nat.zero_add, Finset.sum_range_one]
    · rw [accAt_later m c ⟨n + 1, hn⟩ h8]
      refine (pay5_apply _ _ _ p qq).trans ?_
      rw [step_sum m c ⟨n + 1, hn⟩ p qq r q hr hq]
      have ih' := ih (Nat.lt_of_succ_lt hn) p qq r q (by omega) (by omega)
      have e8 : (n + 1) % 8 = n % 8 + 1 := by omega
      show accAt m c n _ (ix2 p qq) + ∑ l : Fin 512, term (sA m c) (wrA m c) r q (512 * ((n + 1) % 8) + l.val) = _
      rw [ih', e8, Finset.sum_range_succ _ (n % 8 + 1)]

/-- The eight blocks are the whole state product. -/
theorem blocks_eq_stProd (s : Cert.Spec.SS.Idx → EReal) (wr : Cert.Spec.SR.Idx → EReal) (r : Fin 2048) (q : Fin 4096) :
    ∑ k ∈ Finset.range 8, ∑ l : Fin 512, term s wr r q (512 * k + l.val) = Cert.Spec.stProd s wr r q := by
  rw [← Cert.Lib.sum_fin_blocks (term s wr r q) 8 512]
  unfold Cert.Spec.stProd
  show ∑ e : Fin 4096, term s wr r q e.val = _
  refine Finset.sum_congr rfl fun e _ => ?_
  unfold term
  rw [dif_pos e.isLt]

/-- The input product is computed at a tile's first step from whole rows and columns, and kept. -/
theorem ic_eq (c : Dev nD) : ∀ (n : ℕ) (hn : n < cfg0.N) (p : Fin 256) (qq : Fin 512) (r : Fin 2048) (q : Fin 4096),
    r.val = 256 * (n / 64) + p.val → q.val = 512 * (n / 8 % 8) + qq.val →
    icAt m c n hn (ix2 p qq) = Cert.Spec.inProd (xA m c) (wiA m c) r q := by
  have first : ∀ (t : Fin cfg0.N), t.val % 8 = 0 → ∀ (p : Fin 256) (qq : Fin 512) (r : Fin 2048) (q : Fin 4096),
      r.val = 256 * (t.val / 64) + p.val → q.val = 512 * (t.val / 8 % 8) + qq.val →
      icAt m c t.val t.isLt (ix2 p qq) = Cert.Spec.inProd (xA m c) (wiA m c) r q := by
    intro t h8 p qq r q hr hq
    rw [icAt_first m c t h8]
    refine (pay3_apply _ _ p qq).trans ?_
    unfold Cert.Spec.inProd
    refine Finset.sum_congr rfl fun d _ => ?_
    rw [xblk_entry m c t p d r hr, wiblk_entry m c t d qq q hq]
  intro n
  induction n with
  | zero => intro hn p qq r q hr hq; exact first ⟨0, hn⟩ rfl p qq r q hr hq
  | succ n ih =>
    intro hn p qq r q hr hq
    by_cases h8 : (n + 1) % 8 = 0
    · exact first ⟨n + 1, hn⟩ h8 p qq r q hr hq
    · rw [icAt_later m c ⟨n + 1, hn⟩ h8]
      exact ih (Nat.lt_of_succ_lt hn) p qq r q (by omega) (by omega)

/-- So is the gate. -/
theorem gate_eq (c : Dev nD) : ∀ (n : ℕ) (hn : n < cfg0.N) (p : Fin 256) (qq : Fin 512) (r : Fin 2048) (q : Fin 4096),
    r.val = 256 * (n / 64) + p.val → q.val = 512 * (n / 8 % 8) + qq.val →
    gateAt m c n hn (ix2 p qq) = Ideal.logistic (Cert.Spec.inProd (xA m c) (wgA m c) r q) := by
  have first : ∀ (t : Fin cfg0.N), t.val % 8 = 0 → ∀ (p : Fin 256) (qq : Fin 512) (r : Fin 2048) (q : Fin 4096),
      r.val = 256 * (t.val / 64) + p.val → q.val = 512 * (t.val / 8 % 8) + qq.val →
      gateAt m c t.val t.isLt (ix2 p qq) = Ideal.logistic (Cert.Spec.inProd (xA m c) (wgA m c) r q) := by
    intro t h8 p qq r q hr hq
    rw [gateAt_first m c t h8]
    refine (pay4_apply _ _ p qq).trans ?_
    unfold Cert.Spec.inProd
    congr 1
    refine Finset.sum_congr rfl fun d _ => ?_
    rw [xblk_entry m c t p d r hr, wgblk_entry m c t d qq q hq]
  intro n
  induction n with
  | zero => intro hn p qq r q hr hq; exact first ⟨0, hn⟩ rfl p qq r q hr hq
  | succ n ih =>
    intro hn p qq r q hr hq
    by_cases h8 : (n + 1) % 8 = 0
    · exact first ⟨n + 1, hn⟩ h8 p qq r q hr hq
    · rw [gateAt_later m c ⟨n + 1, hn⟩ h8]
      exact ih (Nat.lt_of_succ_lt hn) p qq r q (by omega) (by omega)

/-- The new-state block a tile's last step stores, at an entry: the step's formula at the array's entry. -/
theorem stateOut_apply (c : Dev nD) (t : Fin cfg0.N) (h7 : t.val % 8 = 7) (p : Fin 256) (qq : Fin 512) (r : Fin 2048) (q : Fin 4096)
    (hr : r.val = 256 * (t.val / 64) + p.val) (hq : q.val = 512 * (t.val / 8 % 8) + qq.val) :
    stateOut m c t (ix2 p qq) = Cert.Spec.newStateAt (xA m c) (sA m c) (wiA m c) (wrA m c) (wgA m c) r q := by
  refine (pay6_apply _ _ _ _ p qq).trans ?_
  rw [seblk_entry m c t p qq r q hr hq, ic_eq m c t.val t.isLt p qq r q hr hq, acc_eq m c t.val t.isLt p qq r q hr hq,
    gate_eq m c t.val t.isLt p qq r q hr hq, h7, blocks_eq_stProd]
  rfl

/-- The spike block, at an entry. -/
theorem spikeOut_apply (c : Dev nD) (t : Fin cfg0.N) (h7 : t.val % 8 = 7) (p : Fin 256) (qq : Fin 512) (r : Fin 2048) (q : Fin 4096)
    (hr : r.val = 256 * (t.val / 64) + p.val) (hq : q.val = 512 * (t.val / 8 % 8) + qq.val) :
    spikeOut m c t (ix2 p qq) = Cert.Spec.spikeAt (xA m c) (sA m c) (wiA m c) (wrA m c) (wgA m c) r q := by
  refine (pay7_apply _ _ _ _ p qq).trans ?_
  unfold Cert.Spec.spikeAt
  rw [← stateOut_apply m c t h7 p qq r q hr hq]

/-! ## From the tiles to the arrays -/

/-- The spec's arrays at the launch contents. -/
abbrev stateG (c : Dev nD) : Cert.Spec.SS.Idx → EReal :=
  Cert.Spec.newState (xA m c) (sA m c) (wiA m c) (wrA m c) (wgA m c)
abbrev spikeG (c : Dev nD) : Cert.Spec.SS.Idx → EReal :=
  Cert.Spec.spike (xA m c) (sA m c) (wiA m c) (wrA m c) (wgA m c)

/-- What a tile's last step writes back through the new-state window is that tile of the step's formula. -/
theorem flushed7_eq (c : Dev nD) (t : Fin cfg0.N) (hf : (cfg0.win 7).flush t = true) :
    (dats m 0 c).flushed 7 t = ((cfg0.win 7).blk t).view.read (Elt Ideal) (stateG m c) := by
  have h7 : t.val % 8 = 7 := (flush0_7 t).mp hf
  obtain ⟨-, -, -, -, -, -, -, -, -, -, -, -, -, -, e0, e1⟩ := idx_facts t
  show (cfg0.win 7).cut (grid0.coords t) ((dats m 0 c).after 7 t) = _
  rw [after7]
  funext y
  have hy0 : (y 0).val < 256 := (y 0).isLt
  have hy1 : (y 1).val < 512 := (y 1).isLt
  rw [View.read_apply]
  show stateOut m c t ((cfg0.win 7).xinj (grid0.coords t) y)
    = Cert.Spec.newStateAt (xA m c) (sA m c) (wiA m c) (wrA m c) (wgA m c) ((((cfg0.win 7).blk t).view.emb y) 0) ((((cfg0.win 7).blk t).view.emb y) 1)
  have hx : (cfg0.win 7).xinj (grid0.coords t) y = ix2 (⟨(y 0).val, hy0⟩ : Fin 256) (⟨(y 1).val, hy1⟩ : Fin 512) := by
    funext a
    match a with
    | ⟨0, _⟩ => rfl
    | ⟨1, _⟩ => rfl
  rw [hx]
  refine stateOut_apply m c t h7 _ _ _ _ ?_ ?_
  · show win0_7.index t 0 * 256 + 1 * (y 0).val = 256 * (t.val / 64) + (y 0).val; rw [e0]; omega
  · show win0_7.index t 1 * 512 + 1 * (y 1).val = 512 * (t.val / 8 % 8) + (y 1).val; rw [e1]; omega

/-- And through the spike window, that tile of the threshold indicator. -/
theorem flushed6_eq (c : Dev nD) (t : Fin cfg0.N) (hf : (cfg0.win 6).flush t = true) :
    (dats m 0 c).flushed 6 t = ((cfg0.win 6).blk t).view.read (Elt Ideal) (spikeG m c) := by
  have h7 : t.val % 8 = 7 := (flush0_6 t).mp hf
  obtain ⟨-, -, -, -, -, -, -, -, -, -, -, -, e0, e1, -⟩ := idx_facts t
  show (cfg0.win 6).cut (grid0.coords t) ((dats m 0 c).after 6 t) = _
  rw [after6]
  funext y
  have hy0 : (y 0).val < 256 := (y 0).isLt
  have hy1 : (y 1).val < 512 := (y 1).isLt
  rw [View.read_apply]
  show spikeOut m c t ((cfg0.win 6).xinj (grid0.coords t) y)
    = Cert.Spec.spikeAt (xA m c) (sA m c) (wiA m c) (wrA m c) (wgA m c) ((((cfg0.win 6).blk t).view.emb y) 0) ((((cfg0.win 6).blk t).view.emb y) 1)
  have hx : (cfg0.win 6).xinj (grid0.coords t) y = ix2 (⟨(y 0).val, hy0⟩ : Fin 256) (⟨(y 1).val, hy1⟩ : Fin 512) := by
    funext a
    match a with
    | ⟨0, _⟩ => rfl
    | ⟨1, _⟩ => rfl
  rw [hx]
  refine spikeOut_apply m c t h7 _ _ _ _ ?_ ?_
  · show win0_6.index t 0 * 256 + 1 * (y 0).val = 256 * (t.val / 64) + (y 0).val; rw [e0]; omega
  · show win0_6.index t 1 * 512 + 1 * (y 1).val = 512 * (t.val / 8 % 8) + (y 1).val; rw [e1]; omega

/-- The last step of the tile that holds entry (r, q). -/
def tileEnd (i : Cert.Spec.SS.Idx) : Fin cfg0.N :=
  ⟨64 * ((i 0).val / 256) + 8 * ((i 1).val / 512) + 7, by
    have h0 : (i 0).val < 2048 := (i 0).isLt
    have h1 : (i 1).val < 4096 := (i 1).isLt
    rw [show cfg0.N = 512 from N_0]; omega⟩

theorem cover7 (i : Cert.Spec.SS.Idx) : ∃ t : Fin cfg0.N, (cfg0.win 7).flush t = true ∧ i ∈ ((cfg0.win 7).blk t).view.set := by
  have h0 : (i 0).val < 2048 := (i 0).isLt
  have h1 : (i 1).val < 4096 := (i 1).isLt
  have hv : (tileEnd i).val = 64 * ((i 0).val / 256) + 8 * ((i 1).val / 512) + 7 := rfl
  obtain ⟨-, -, -, -, -, -, -, -, -, -, -, -, -, -, e0, e1⟩ := idx_facts (tileEnd i)
  refine ⟨tileEnd i, (flush0_7 (tileEnd i)).mpr (by rw [hv]; omega), ?_⟩
  show i ∈ ((View.whole main_v0_1).slice (win0_7.rect (tileEnd i))).set
  rw [View.set_slice_whole, Rect.mem_set_unit]
  intro a
  match a with
  | ⟨0, _⟩ =>
    show win0_7.index (tileEnd i) 0 * 256 ≤ (i 0).val ∧ (i 0).val < win0_7.index (tileEnd i) 0 * 256 + 256
    rw [e0, hv]; omega
  | ⟨1, _⟩ =>
    show win0_7.index (tileEnd i) 1 * 512 ≤ (i 1).val ∧ (i 1).val < win0_7.index (tileEnd i) 1 * 512 + 512
    rw [e1, hv]; omega

theorem cover6 (i : Cert.Spec.SS.Idx) : ∃ t : Fin cfg0.N, (cfg0.win 6).flush t = true ∧ i ∈ ((cfg0.win 6).blk t).view.set := by
  have h0 : (i 0).val < 2048 := (i 0).isLt
  have h1 : (i 1).val < 4096 := (i 1).isLt
  have hv : (tileEnd i).val = 64 * ((i 0).val / 256) + 8 * ((i 1).val / 512) + 7 := rfl
  obtain ⟨-, -, -, -, -, -, -, -, -, -, -, -, e0, e1, -⟩ := idx_facts (tileEnd i)
  refine ⟨tileEnd i, (flush0_6 (tileEnd i)).mpr (by rw [hv]; omega), ?_⟩
  show i ∈ ((View.whole main_v0_0).slice (win0_6.rect (tileEnd i))).set
  rw [View.set_slice_whole, Rect.mem_set_unit]
  intro a
  match a with
  | ⟨0, _⟩ =>
    show win0_6.index (tileEnd i) 0 * 256 ≤ (i 0).val ∧ (i 0).val < win0_6.index (tileEnd i) 0 * 256 + 256
    rw [e0, hv]; omega
  | ⟨1, _⟩ =>
    show win0_6.index (tileEnd i) 1 * 512 ≤ (i 1).val ∧ (i 1).val < win0_6.index (tileEnd i) 1 * 512 + 512
    rw [e1, hv]; omega

/-- The spike array after the run. -/
theorem final_spike (c : Dev nD) :
    (dats (F := Ideal) m 0 c).arrAt 6 cfg0.N
      = Cert.Spec.spike (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) :=
  (dats (F := Ideal) m 0 c).arrAt_eq_of_cover 6 (spikeG m c) (flushed6_eq m c) (cover6)

/-- The new-state array after the run. -/
theorem final_state (c : Dev nD) :
    (dats (F := Ideal) m 0 c).arrAt 7 cfg0.N
      = Cert.Spec.newState (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) :=
  (dats (F := Ideal) m 0 c).arrAt_eq_of_cover 7 (stateG m c) (flushed7_eq m c) (cover7)

end Cert.KernelIdeal.HandValue

end
-- ==== Proof.RefValue.lean ====
/-
  The reference's two results, at the ideal values, are the gated leaky-integrator step of the argument arrays entry
  by entry: its three `dot_general`s are the three sums over the contracted coordinate, its negate / exponential /
  add / divide chain is the logistic function, and its `where` is the threshold's selection.
-/
import proofs.«174889_j37572373905508_1_alg».proof.Proof.Gen.ReferenceIdeal.Read
import proofs.«174889_j37572373905508_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The binary32 pattern of 1.0 denotes the extended real one. -/
theorem ofBits_one_f32 : Ideal.ofBits .f32 0x3F800000#32 = (1 : EReal) := by
  simp [Ideal.ofBits, Ideal.ieee, -EReal.coe_mul]; norm_num

/-- The first product reads the inputs along row r and the input weights along column q. -/
theorem lidx0_eq (r : Fin 2048) (q : Fin 4096) (k : Fin 1024) : lidx_main_v0 (ix2 r q) k = ix2 r k :=
  funext fun a => by match a with | ⟨0, _⟩ => rfl | ⟨1, _⟩ => rfl
theorem ridx0_eq (r : Fin 2048) (q : Fin 4096) (k : Fin 1024) : ridx_main_v0 (ix2 r q) k = ix2 k q :=
  funext fun a => by match a with | ⟨0, _⟩ => rfl | ⟨1, _⟩ => rfl
/-- The second product reads the state along row r and the reservoir weights along column q. -/
theorem lidx1_eq (r : Fin 2048) (q : Fin 4096) (k : Fin 4096) : lidx_main_v1 (ix2 r q) k = ix2 r k :=
  funext fun a => by match a with | ⟨0, _⟩ => rfl | ⟨1, _⟩ => rfl
theorem ridx1_eq (r : Fin 2048) (q : Fin 4096) (k : Fin 4096) : ridx_main_v1 (ix2 r q) k = ix2 k q :=
  funext fun a => by match a with | ⟨0, _⟩ => rfl | ⟨1, _⟩ => rfl
/-- The third product reads the inputs along row r and the gate weights along column q. -/
theorem lidx2_eq (r : Fin 2048) (q : Fin 4096) (k : Fin 1024) : lidx_main_v2 (ix2 r q) k = ix2 r k :=
  funext fun a => by match a with | ⟨0, _⟩ => rfl | ⟨1, _⟩ => rfl
theorem ridx2_eq (r : Fin 2048) (q : Fin 4096) (k : Fin 1024) : ridx_main_v2 (ix2 r q) k = ix2 k q :=
  funext fun a => by match a with | ⟨0, _⟩ => rfl | ⟨1, _⟩ => rfl

/-- The reference's new state is the specification's. -/
theorem state_eq (x0 : (⟨S2048x1024, .f32⟩ : BufTy).Contents (Elt Ideal)) (x2 : (⟨S2048x4096, .f32⟩ : BufTy).Contents (Elt Ideal))
    (x3 : (⟨S1024x4096, .f32⟩ : BufTy).Contents (Elt Ideal)) (x4 : (⟨S4096x4096, .f32⟩ : BufTy).Contents (Elt Ideal))
    (x5 : (⟨S1024x4096, .f32⟩ : BufTy).Contents (Elt Ideal)) :
    val_main_v16 (F := Ideal) x0 x2 x3 x4 x5 = Cert.Spec.newState x0 x2 x3 x4 x5 := by
  funext i
  obtain ⟨r, q, rfl⟩ : ∃ (r : Fin 2048) (q : Fin 4096), i = ix2 r q := ⟨i 0, i 1, eq_ix2 i⟩
  rw [val_main_v16_apply, val_main_v15_apply, val_main_v10_apply, val_main_v9_apply, val_main_cst_1_apply,
    val_main_v14_apply, val_main_v13_apply, val_main_cst_2_apply, val_main_v12_apply, val_main_v11_apply,
    val_main_v0_apply, val_main_v1_apply, val_main_v8_apply, val_main_v7_apply, val_main_cst_0_apply,
    val_main_v6_apply, val_main_v5_apply, val_main_cst_apply, val_main_v4_apply, val_main_v3_apply, val_main_v2_apply]
  simp only [lidx0_eq, ridx0_eq, lidx1_eq, ridx1_eq, lidx2_eq, ridx2_eq, Ideal.ofBits_def, Ideal.addf_def, Ideal.mulf_def,
    Ideal.hostDivf_def, Ideal.hostUnary_exp_def, Ideal.hostUnary_tanh_def, Ideal.hostNegf_def, Ideal.negf_def,
    ofBits_one_f32]
  show _ = Cert.Spec.newStateAt x0 x2 x3 x4 x5 r q
  unfold Cert.Spec.newStateAt Cert.Spec.inProd Cert.Spec.stProd Ideal.logistic
  rfl

/-- The reference's spike output is the specification's. -/
theorem spike_eq (x0 : (⟨S2048x1024, .f32⟩ : BufTy).Contents (Elt Ideal)) (x2 : (⟨S2048x4096, .f32⟩ : BufTy).Contents (Elt Ideal))
    (x3 : (⟨S1024x4096, .f32⟩ : BufTy).Contents (Elt Ideal)) (x4 : (⟨S4096x4096, .f32⟩ : BufTy).Contents (Elt Ideal))
    (x5 : (⟨S1024x4096, .f32⟩ : BufTy).Contents (Elt Ideal)) :
    val_main_v21 (F := Ideal) x0 x2 x3 x4 x5 = Cert.Spec.spike x0 x2 x3 x4 x5 := by
  funext i
  obtain ⟨r, q, rfl⟩ : ∃ (r : Fin 2048) (q : Fin 4096), i = ix2 r q := ⟨i 0, i 1, eq_ix2 i⟩
  rw [val_main_v21_apply, val_main_v18_apply, val_main_v19_apply, val_main_cst_4_apply, val_main_v20_apply,
    val_main_cst_5_apply, val_main_v17_apply, val_main_cst_3_apply, state_eq]
  simp only [Ideal.cmpf_def, Ideal.ofBits_def]
  show _ = Cert.Spec.spikeAt x0 x2 x3 x4 x5 r q
  unfold Cert.Spec.spikeAt
  rfl

end Cert.ReferenceIdeal.RefValue

end
-- ==== Proof.lean ====
/-
  The fused reservoir step against its reference, at the ideal values.

  With x the inputs [2048, 1024], s the state [2048, 4096], W_in and W_g the input and gate weights [1024, 4096] and W_r
  the reservoir weights [4096, 4096], both programs compute, entry by entry on the extended reals (Proof/Spec.lean),
      new = (c₉ · s + c₁ · tanh (x · W_in + s · W_r)) · σ(x · W_g),      spike = 1 where new > 1/2, else 0.
  Within an output tile the kernel adds the state's product with the reservoir weights one block of 512 contraction
  terms per step; after the eighth step the accumulator is the whole contraction of 4096 terms, regrouped in 8
  consecutive blocks. The input product and the gate are computed whole at a tile's first step; the last step
  combines them and stores the two result tiles, and the tiles cover the result arrays. The kernel's logistic is
  1 / (1 + exp (-z)) by definition at the ideal values, which is the reference's negate / exponential / add / divide
  chain with its literal 1.0 read as the real one. Both programs carry the same binary32 literals for 0.9, 0.1 and
  1/2, so none of them is evaluated. All three programs run and leave their six argument arrays as they were, and
  the idealization rewrote no operation.
-/
import proofs.«174889_j37572373905508_1_alg».proof.Defs
import proofs.«174889_j37572373905508_1_alg».proof.Proof.Gen.Kernel
import proofs.«174889_j37572373905508_1_alg».proof.Proof.Gen.Kernel.Skeleton
import proofs.«174889_j37572373905508_1_alg».proof.Proof.Gen.Kernel.Launch
import proofs.«174889_j37572373905508_1_alg».proof.Proof.Gen.Kernel.Points
import proofs.«174889_j37572373905508_1_alg».proof.Proof.Gen.KernelIdeal
import proofs.«174889_j37572373905508_1_alg».proof.Proof.Gen.KernelIdeal.Skeleton
import proofs.«174889_j37572373905508_1_alg».proof.Proof.Gen.KernelIdeal.Launch
import proofs.«174889_j37572373905508_1_alg».proof.Proof.Gen.KernelIdeal.Points
import proofs.«174889_j37572373905508_1_alg».proof.Proof.Gen.ReferenceIdeal
import proofs.«174889_j37572373905508_1_alg».proof.Proof.Gen.ReferenceIdeal.Run
import proofs.«174889_j37572373905508_1_alg».proof.Proof.Gen.ReferenceIdeal.Read
import proofs.«174889_j37572373905508_1_alg».proof.Proof.Gen.Pre_finite_inputs
import proofs.«174889_j37572373905508_1_alg».proof.Proof.BitsRun
import proofs.«174889_j37572373905508_1_alg».proof.Proof.IdealRun
import proofs.«174889_j37572373905508_1_alg».proof.Proof.IdealValue
import proofs.«174889_j37572373905508_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Hand.frame m ρ

/-- So does the kernel read at the ideal values. -/
theorem frame_ki : Cert.frame_KernelIdeal := fun m ρ _ => Cert.KernelIdeal.Hand.frame m ρ

/-- So does the reference read at the ideal values. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal values both programs end with the gated leaky-integrator step of the argument arrays in their two
    result arrays: the spike indicator and the new state. -/
theorem algebraic : Cert.algebraic_KernelIdeal_ReferenceIdeal := by
  intro m ρ m' ρ' _ hagree
  refine ⟨fun c => Cert.Spec.spike (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.Spec.newState (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c =>
      ⟨(h c).1.trans (Cert.KernelIdeal.HandValue.final_spike m c), (h c).2.1.trans (Cert.KernelIdeal.HandValue.final_state m c), (h c).2.2⟩)
      (Cert.KernelIdeal.Hand.run_results m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v21_eq, Cert.ReferenceIdeal.RefValue.spike_eq, (hagree c).1, (hagree c).2.2.1,
        (hagree c).2.2.2.1, (hagree c).2.2.2.2.1, (hagree c).2.2.2.2.2]
    · rw [Cert.ReferenceIdeal.Read.val_main_v16_eq, Cert.ReferenceIdeal.RefValue.state_eq, (hagree c).1, (hagree c).2.2.1,
        (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
